-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S32x1024x1024 .f32) (main_arg1 : IVec S32x1024 32) (main_arg2 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg2
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_c_2 : IVec S_ 32 := constantI S_ 32 0#32
  let main_v9 : IVec S32x1024 32 := broadcastInDim S32x1024 ![] bcast_S_S32x1024 main_c_2
  let main_v10 : IVec S32x1024 1 := cmpi .eq main_arg1 main_v9
  let main_c_3 : IVec S_ 32 := constantI S_ 32 1#32
  let main_v11 : IVec S32x1024 32 := broadcastInDim S32x1024 ![] bcast_S_S32x1024 main_c_3
  let main_v12 : IVec S32x1024 1 := cmpi .eq main_arg1 main_v11
  let main_v13 : IVec S32x1024 1 := ori main_v10 main_v12
  let main_c_4 : IVec S_ 1 := constantI S_ 1 1#1
  let main_v14 : IVec S_ 1 := (fun x v => Host.reduce IntOp.andi x v reducesTo_S32x1024_S_d0_1 h_S_) main_v13 main_c_4
  let main_v15 : IVec S_ 1 := andi main_v8 main_v14
  main_v15
-- ==== Kernel.lean ====
abbrev S32x1024x1024 : Shape := ⟨3, ![32, 1024, 1024]⟩
abbrev S32x1024 : Shape := ⟨2, ![32, 1024]⟩
abbrev S_ : Shape := ⟨0, ![]⟩
abbrev S32 : Shape := ⟨1, ![32]⟩
abbrev S32x128 : Shape := ⟨2, ![32, 128]⟩
abbrev S1x1024x1024 : Shape := ⟨3, ![1, 1024, 1024]⟩
abbrev S8x128 : Shape := ⟨2, ![8, 128]⟩
abbrev S1 : Shape := ⟨1, ![1]⟩
abbrev S1x1024 : Shape := ⟨2, ![1, 1024]⟩
abbrev S1x1024x1 : Shape := ⟨3, ![1, 1024, 1]⟩
abbrev S1x1x1024 : Shape := ⟨3, ![1, 1, 1024]⟩
abbrev S1x1 : Shape := ⟨2, ![1, 1]⟩
abbrev S32x1 : Shape := ⟨2, ![32, 1]⟩

abbrev nBuf : Space → Nat
  | .hbm => 26
  | .vmem => 6
  | .smem => 1
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1024x1024, .f32⟩
  | .hbm, ⟨3, _⟩ => ⟨S_, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32x128, .f32⟩
  | .hbm, ⟨8, _⟩ => ⟨S32x1, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S8x128, .f32⟩
  | .local _ .vmem, ⟨5, _⟩ => ⟨S8x128, .f32⟩
  | .local _ .smem, ⟨0, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_call0_v0 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S32x1024_S32_d1 : S32x1024.ReducesTo [1] S32
  h_S_ : 0 < S_.numel
  bcast_S_S32 : S_.BroadcastsInDim S32 (![] : Fin 0 → Fin S32.rank)
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  rotates_S1x1024x1024_d1 : S1x1024x1024.Rotates 1 none
  rotates_S1x1024x1024_d2 : S1x1024x1024.Rotates 2 none
  iota_S1x1024_d1_w32 : S1x1024.Iotas .tc 32 [1]
  natLt_1_32 : 1 < 32
  shapeCasts_S1x1024_S1x1024x1 : S1x1024.ShapeCasts S1x1024x1
  shapeCasts_S1x1024_S1x1x1024 : S1x1024.ShapeCasts S1x1x1024
  broadcasts_S1x1024x1_S1x1024x1024 : S1x1024x1.Broadcasts S1x1024x1024
  broadcasts_S1x1x1024_S1x1024x1024 : S1x1x1024.Broadcasts S1x1024x1024
  reduces_S1x1024x1024_S1x1024 : S1x1024x1024.Reduces [2] S1x1024
  reduces_S1x1024x1_S1x1 : S1x1024x1.Reduces [1] S1x1
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  iota_S8x128_d0_w32 : S8x128.Iotas .tc 32 [0]
  shapeCasts_S8x128_S8x128 : S8x128.ShapeCasts S8x128
  slices_S32x128_S32x1_0_0 : S32x128.Slices ![0, 0] S32x1
  shapeCasts_S32x1_S32 : S32x1.ShapeCasts S32
  reducesTo_S32_S_d0 : S32.ReducesTo [0] S_
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x128.size a
  hwx0_2 : ∀ i : grid0.Coords, EltTy.bits .f32 = 32 ∨ (Rect.block (s := S32x128) S8x128.size (cc0_transform_2 i) (hinb0_2 i)).WholeWords (EltTy.packing .f32)

variable [Facts₀]

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v3) S8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32x1024 : Shape := ⟨2, ![32, 1024]⟩
abbrev S_ : Shape := ⟨0, ![]⟩
abbrev S32 : Shape := ⟨1, ![32]⟩
abbrev S32x1023x1023 : Shape := ⟨3, ![32, 1023, 1023]⟩
abbrev S1023 : Shape := ⟨1, ![1023]⟩
abbrev S1x1023 : Shape := ⟨2, ![1, 1023]⟩
abbrev S32x1 : Shape := ⟨2, ![32, 1]⟩
abbrev S32x1023 : Shape := ⟨2, ![32, 1023]⟩
abbrev S32x1023x1 : Shape := ⟨3, ![32, 1023, 1]⟩
abbrev S32x1x1023 : Shape := ⟨3, ![32, 1, 1023]⟩

abbrev nBuf : Space → Nat
  | .hbm => 44
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .i32⟩
  | .hbm, ⟨2, _⟩ => ⟨S32x1024x1024, .f32⟩
  | .hbm, ⟨3, _⟩ => ⟨S_, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32x1023x1023, .f32⟩
  | .hbm, ⟨9, _⟩ => ⟨S32x1023x1023, .f32⟩
  | .hbm, ⟨10, _⟩ => ⟨S32x1023x1023, .f32⟩
  | .hbm, ⟨11, _⟩ => ⟨S1023, .i32⟩
  | .hbm, ⟨12, _⟩ => ⟨S1x1023, .i32⟩
  | .hbm, ⟨13, _⟩ => ⟨S32x1, .i32⟩
  | .hbm, ⟨14, _⟩ => ⟨S32x1023, .i32⟩
  | .hbm, ⟨15, _⟩ => ⟨S32x1023, .i32⟩
  | .hbm, ⟨16, _⟩ => ⟨S32x1023, .i1⟩
  | .hbm, ⟨17, _⟩ => ⟨S32x1023, .f32⟩
  | .hbm, ⟨18, _⟩ => ⟨S32x1023x1, .f32⟩
  | .hbm, ⟨19, _⟩ => ⟨S32x1x1023, .f32⟩
  | .hbm, ⟨20, _⟩ => ⟨S32x1023x1023, .f32⟩
  | .hbm, ⟨21, _⟩ => ⟨S32x1023x1023, .f32⟩
  | .hbm, ⟨22, _⟩ => ⟨S32x1023x1023, .f32⟩
  | .hbm, ⟨23, _⟩ => ⟨S32x1023x1023, .f32⟩
  | .hbm, ⟨24, _⟩ => ⟨S32x1023x1023, .f32⟩
  | .hbm, ⟨25, _⟩ => ⟨S32x1023x1023, .f32⟩
  | .hbm, ⟨26, _⟩ => ⟨S_, .f32⟩
  | .hbm, ⟨27, _⟩ => ⟨S32, .f32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .f32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  reducesTo_S32x1024_S32_d1 : S32x1024.ReducesTo [1] S32
  h_S_ : 0 < S_.numel
  bcast_S_S32 : S_.BroadcastsInDim S32 (![] : Fin 0 → Fin S32.rank)
  slices_S32x1024x1024_S32x1023x1023_0_1_1 : S32x1024x1024.Slices ![0, 1, 1] S32x1023x1023
  slices_S32x1024x1024_S32x1023x1023_0_0_0 : S32x1024x1024.Slices ![0, 0, 0] S32x1023x1023
  bcast_S1023_S1x1023_1 : S1023.BroadcastsInDim S1x1023 (![1] : Fin 1 → Fin S1x1023.rank)
  bcast_S32_S32x1_0 : S32.BroadcastsInDim S32x1 (![0] : Fin 1 → Fin S32x1.rank)
  bcast_S1x1023_S32x1023_0_1 : S1x1023.BroadcastsInDim S32x1023 (![0, 1] : Fin 2 → Fin S32x1023.rank)
  bcast_S32x1_S32x1023_0_1 : S32x1.BroadcastsInDim S32x1023 (![0, 1] : Fin 2 → Fin S32x1023.rank)
  bcast_S32x1023_S32x1023x1_0_1 : S32x1023.BroadcastsInDim S32x1023x1 (![0, 1] : Fin 2 → Fin S32x1023x1.rank)
  bcast_S32x1023_S32x1x1023_0_2 : S32x1023.BroadcastsInDim S32x1x1023 (![0, 2] : Fin 2 → Fin S32x1x1023.rank)
  bcast_S32x1023x1_S32x1023x1023_0_1_2 : S32x1023x1.BroadcastsInDim S32x1023x1023 (![0, 1, 2] : Fin 3 → Fin S32x1023x1023.rank)
  bcast_S32x1x1023_S32x1023x1023_0_1_2 : S32x1x1023.BroadcastsInDim S32x1023x1023 (![0, 1, 2] : Fin 3 → Fin S32x1023x1023.rank)
  reducesTo_S32x1023x1023_S32_d1_2 : S32x1023x1023.ReducesTo [1, 2] S32
  reducesTo_S32_S_d0 : S32.ReducesTo [0] S_

variable [Facts₀]

class Facts : Prop extends Facts₀ where

variable [Facts]
-- ==== Proof.K.Sched.lean ====
/-
  The pipeline's schedule on the grid of 4 x 8 points, and the names the body's runs are stated over.

  Point t = 8 g + l works on sample t: both input windows move to block t at every point, so each is fetched at
  every point; the output window's block index is g, so its staging buffer is kept through the eight points of a
  group and written back at the last of them. The body's one branch is taken at the first point of a group.
-/
import proofs.«417268_j40742059770679_1_alg».proof.Proof.Gen.Kernel.Launch
import proofs.«417268_j40742059770679_1_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first input window (the input array) is fetched at every point, whatever the table holds. -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- The second input window (the target array) is fetched at every point. -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- The output window is written back exactly at the last point of each group of eight. -/
theorem flush0_2 (a : (pcfg0 (F := F)).Adm) : ∀ t : Fin (cfg0 a).N, ((cfg0 a).win 2).flush t = true ↔ t.val % 8 = 7 :=
  (by decide +kernel : ∀ t : Fin grid0.N, Pipeline.Window.flushOf grid0 true cc0_transform_2 t = true ↔ t.val % 8 = 7)

/-- The body's branch condition from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds exactly at the first point of each group of eight. -/
theorem hcond0 : ∀ t : Fin grid0.N, cond0 (grid0.coords t) ↔ t.val % 8 = 0 := by decide +kernel

/-- Each window's current staging memref at point `t`, and its wholeness. -/
abbrev ms0_0 (a : (pcfg0 (F := F)).Adm) (t : Fin (cfg0 a).N) : Memref sig .tc .vmem S1x1024x1024 .f32 := spec0_0.stage ((cfg0 a).slots t 0)
abbrev hs0_0 (a : (pcfg0 (F := F)).Adm) (t : Fin (cfg0 a).N) : (ms0_0 a t).IsWhole := hstage0_0 (((cfg0 a).slots t 0).cast nbuf0_0)
abbrev ms0_1 (a : (pcfg0 (F := F)).Adm) (t : Fin (cfg0 a).N) : Memref sig .tc .vmem S1x1024x1024 .f32 := spec0_1.stage ((cfg0 a).slots t 1)
abbrev hs0_1 (a : (pcfg0 (F := F)).Adm) (t : Fin (cfg0 a).N) : (ms0_1 a t).IsWhole := hstage0_1 (((cfg0 a).slots t 1).cast nbuf0_1)
abbrev ms0_2 (a : (pcfg0 (F := F)).Adm) (t : Fin (cfg0 a).N) : Memref sig .tc .vmem S8x128 .f32 := spec0_2.stage ((cfg0 a).slots t 2)
abbrev hs0_2 (a : (pcfg0 (F := F)).Adm) (t : Fin (cfg0 a).N) : (ms0_2 a t).IsWhole := hstage0_2 (((cfg0 a).slots t 2).cast nbuf0_2)

/-- The table of sample lengths as the body is handed it: its whole buffer in scalar memory. -/
abbrev tbM : Memref sig .tc .smem S32 .i32 := Memref.whole main_v2
abbrev htbM : tbM.IsWhole := Memref.isWhole_whole _
/-- The table's buffer on core `c`, and that buffer held whole at contents `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- One staging buffer of the output window, through which its contents are stated. -/
abbrev VO : View sig .tc .vmem S8x128 .f32 := (Memref.whole cc0_stg2_0 : Memref sig .tc .vmem S8x128 .f32).view

/-- The kernel body as the pipeline calls it at point `t`. -/
abbrev bodyAt0 (a : (pcfg0 (F := F)).Adm) (t : Fin (cfg0 a).N) : Prog (TpuEff nD τ sig (Elt F) Λ₀ .tc) PUnit :=
  cc0__loss_kernel (grid0.coords t) (Memref.whole main_v2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

end Cert.Kernel.Hand

end
-- ==== Proof.K.BodyA.lean ====
/-
  The kernel body run whole on any whole staging memrefs, at a point that opens a group of eight: the branch is taken, the output block is reset to zero and then receives the sample's sum in its row.
-/
import proofs.«417268_j40742059770679_1_alg».proof.Proof.K.Sched
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), with the proof that on whole
    staging memrefs — the inputs' at their contents, the table's buffer at its contents — the body runs to the
    continuation holding the inputs and the table as they were and the output's buffer with those pieces written. -/
noncomputable def kernelRun_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L) ∗ tbPt c xt) -∗ K ⟨⟩))
          ⊢ wp frame (wpE (defs₀ (F := F)) Variants.none c none) E (cc0__loss_kernel i tbM htbM arg3 harg3 arg4 harg4 arg5 harg5) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%d2, %f2, -, H2⟩, HT, Hk⟩
    obtain rfl := harg3.eq_unread hf0
    obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact HT

end Cert.Kernel.Hand

end
-- ==== Proof.K.BodyB.lean ====
/-
  The kernel body run whole on any whole staging memrefs, at a later point of a group of eight: the branch is not taken, and the sample's sum is added into its row of what the point before left.
-/
import proofs.«417268_j40742059770679_1_alg».proof.Proof.K.Sched
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), with the proof that on whole
    staging memrefs — the inputs' at their contents, the table's buffer at its contents — the body runs to the
    continuation holding the inputs and the table as they were and the output's buffer with those pieces written. -/
noncomputable def kernelRun_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L) ∗ tbPt c xt) -∗ K ⟨⟩))
          ⊢ wp frame (wpE (defs₀ (F := F)) Variants.none c none) E (cc0__loss_kernel i tbM htbM arg3 harg3 arg4 harg4 arg5 harg5) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, HT, Hk⟩
    obtain rfl := harg3.eq_unread hf0
    obtain rfl := harg4.eq_unread hf1
    obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact HT

end Cert.Kernel.Hand

end
-- ==== Proof.K.Outs.lean ====
/-
  What each case of the body leaves in the output's staging buffer: the pieces its run found, read back; and that
  those pieces cover the whole 8 x 128 block (each case ends with a store of the whole block).
-/
import proofs.«417268_j40742059770679_1_alg».proof.Proof.K.BodyA
import proofs.«417268_j40742059770679_1_alg».proof.Proof.K.BodyB
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of a point that opens a group tile the output block, so they cover it. -/
theorem cover_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) (y : S8x128.Idx) :
    ∃ pc ∈ (kernelRun_A c i arg3 harg3 arg4 harg4 arg5 harg5 hc0 x0 x1 xt).1, y ∈ pc.1.set :=
  View.cover_of_tiledL (kernelRun_A c i arg3 harg3 arg4 harg4 arg5 harg5 hc0 x0 x1 xt).1 S8x128.size (by sl_kernel_rfl) y

/-- What a point that opens a group leaves in the output's staging buffer: its pieces read back over anything. -/
def out_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) : Vec F S8x128 .f32 :=
  VO.read (Elt F) (VO.writes (Elt F) VO.junk (kernelRun_A c i arg3 harg3 arg4 harg4 arg5 harg5 hc0 x0 x1 xt).1)

/-- The pieces of a later point of a group tile the output block, so they cover it. -/
theorem cover_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) (y : S8x128.Idx) :
    ∃ pc ∈ (kernelRun_B c i arg3 harg3 arg4 harg4 arg5 harg5 hc0 x0 x1 xo xt).1, y ∈ pc.1.set :=
  View.cover_of_tiledL (kernelRun_B c i arg3 harg3 arg4 harg4 arg5 harg5 hc0 x0 x1 xo xt).1 S8x128.size (by sl_kernel_rfl) y

/-- What a later point of a group leaves in the output's staging buffer, over what the point before left (`xo`). -/
def out_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) : Vec F S8x128 .f32 :=
  VO.read (Elt F) (VO.writes (Elt F) VO.junk (kernelRun_B c i arg3 harg3 arg4 harg4 arg5 harg5 hc0 x0 x1 xo xt).1)

end Cert.Kernel.Hand

end
-- ==== Proof.K.Data.lean ====
/-
  The pipeline's proof data.

  When the region is entered the first host stretch has run: the sample lengths n = (row sums of the mask) - 2 sit in
  the table's buffer. Point t = 8 g + l reads sample t's blocks of the two input arrays and the table word n[t]; the
  output's staging buffer holds, after point t, what the group's points up to t accumulated: reset at l = 0, then one
  row's sum added per point. The invariant carried from point to point is the scoped rest, the generator register and
  the table's buffer, whole, at its contents.
-/
import proofs.«417268_j40742059770679_1_alg».proof.Proof.K.Outs
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers at launch, as the host operations' valuation; -/
abbrev V₀ (c : Dev nD) : Valuation τ sig (Elt F) := fun b => m (c, b)
/-- and when the region is entered: the five operations of the first stretch have run. -/
abbrev V (c : Dev nD) (b : Ref sig .tc) : Buf (Elt F) ((c : Thread nD τ).loc b) := StableHlo.after (hostOps0 (F := F)) (V₀ m c) b

/-! ## The table -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- No index map reads the table: every contents is admissible. -/
abbrev adm : (pcfg0 (F := F)).Adm := ⟨tbl m, by show ok0 (tbl m); unfold ok0; trivial⟩
/-- The pipeline at the table's contents. -/
abbrev cfgM : Pipeline.Cfg sig Λ₀ := cfg0 (adm m)
/-- The table's buffer contents as the body's run names them. -/
abbrev tblBuf (c : Dev nD) : TbBuf (F := F) c := tbl m 0

/-- The table held whole is the one buffer's points-to. -/
theorem prefHeld_eq (c : Dev nD) :
    (Pipeline.prefHeld pre0 c (fun _ => fullShare) (tbl m) : sProp 𝕄) = tbPt c (tblBuf m c) := by
  unfold Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, for any proof data whose array is the
    region-entry contents and whose body leaves the block in place. -/
theorem before_in_of {c : Dev nD} (dat : Dat τ (Elt F) Unit ℕ (UR sig nD τ) ℕ (cfgM m) c) (w : Fin (cfgM m).W) (hw : ((cfgM m).win w).isOut = false)
    (hA : dat.A w = V m c (Pipeline.arrRef spec0 w)) (hf : ∀ t, ((cfgM m).win w).fetch t = true)
    (t : Fin (cfgM m).N) (d) (hfill : dat.fetched w t d = iblk m c w t) : dat.before w t d = iblk m c w t :=
  (dat.before_fetched w t (hf t) d).trans hfill

/-! ## What the output holds after each point -/

/-- THE ACCUMULATION: what the output's staging buffer holds after the body at position `n`. -/
def outsAt (c : Dev nD) : (n : ℕ) → n < (cfgM m).N → Vec F S8x128 .f32
  | 0, hn => out_A c (grid0.coords ⟨0, hn⟩) (ms0_0 (adm m) ⟨0, hn⟩) (hs0_0 (adm m) ⟨0, hn⟩) (ms0_1 (adm m) ⟨0, hn⟩) (hs0_1 (adm m) ⟨0, hn⟩) (ms0_2 (adm m) ⟨0, hn⟩) (hs0_2 (adm m) ⟨0, hn⟩)
      ((hcond0 ⟨0, hn⟩).mpr (Nat.zero_mod _)) (iblk m c 0 ⟨0, hn⟩) (iblk m c 1 ⟨0, hn⟩) (tblBuf m c)
  | n + 1, hn =>
    if h0 : (n + 1) % 8 = 0 then
      out_A c (grid0.coords ⟨n + 1, hn⟩) (ms0_0 (adm m) ⟨n + 1, hn⟩) (hs0_0 (adm m) ⟨n + 1, hn⟩) (ms0_1 (adm m) ⟨n + 1, hn⟩) (hs0_1 (adm m) ⟨n + 1, hn⟩) (ms0_2 (adm m) ⟨n + 1, hn⟩) (hs0_2 (adm m) ⟨n + 1, hn⟩)
        ((hcond0 ⟨n + 1, hn⟩).mpr h0) (iblk m c 0 ⟨n + 1, hn⟩) (iblk m c 1 ⟨n + 1, hn⟩) (tblBuf m c)
    else
      out_B c (grid0.coords ⟨n + 1, hn⟩) (ms0_0 (adm m) ⟨n + 1, hn⟩) (hs0_0 (adm m) ⟨n + 1, hn⟩) (ms0_1 (adm m) ⟨n + 1, hn⟩) (hs0_1 (adm m) ⟨n + 1, hn⟩) (ms0_2 (adm m) ⟨n + 1, hn⟩) (hs0_2 (adm m) ⟨n + 1, hn⟩)
        (fun h => h0 ((hcond0 ⟨n + 1, hn⟩).mp h)) (iblk m c 0 ⟨n + 1, hn⟩) (iblk m c 1 ⟨n + 1, hn⟩) (outsAt c n (Nat.lt_of_succ_lt hn)) (tblBuf m c)

/-- `outsAt` at a point that opens a group. -/
theorem outsAt_A (c : Dev nD) (t : Fin (cfgM m).N) (h0 : t.val % 8 = 0) :
    outsAt m c t.val t.isLt = out_A c (grid0.coords t) (ms0_0 (adm m) t) (hs0_0 (adm m) t) (ms0_1 (adm m) t) (hs0_1 (adm m) t) (ms0_2 (adm m) t) (hs0_2 (adm m) t)
      ((hcond0 t).mpr h0) (iblk m c 0 t) (iblk m c 1 t) (tblBuf m c) := by
  obtain ⟨n, hn⟩ := t
  cases n with
  | zero => exact rfl
  | succ n => exact (dif_pos h0).trans rfl

/-- `outsAt` at a later point of a group: over what the point before left. -/
theorem outsAt_B (c : Dev nD) (t : Fin (cfgM m).N) (h0 : ¬t.val % 8 = 0) :
    outsAt m c t.val t.isLt = out_B c (grid0.coords t) (ms0_0 (adm m) t) (hs0_0 (adm m) t) (ms0_1 (adm m) t) (hs0_1 (adm m) t) (ms0_2 (adm m) t) (hs0_2 (adm m) t)
      (fun h => h0 ((hcond0 t).mp h)) (iblk m c 0 t) (iblk m c 1 t) (outsAt m c (t.val - 1) (Nat.lt_of_le_of_lt (Nat.sub_le _ _) t.isLt)) (tblBuf m c) := by
  obtain ⟨n, hn⟩ := t
  cases n with
  | zero => exact (by exfalso; (try dsimp only at h0); exact absurd (Nat.zero_mod _) h0)
  | succ n => exact (dif_neg h0).trans rfl

/-! ## The proof data -/

/-- The invariant between points: the scoped rest and the generator register, and the table's buffer whole. -/
abbrev Φc (c : Dev nD) : sProp 𝕄 := iprop(Pipeline.ΦA spec0 c ∗ Pipeline.prefHeld pre0 c (fun _ => fullShare) (tbl m))

/-- The proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m c t.val t.isLt)
  Φ _ := Φc m c
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = (outsAt m c t.val t.isLt) := by dsimp only [dats]; try rfl

/-- Each input's current staging buffer holds its block at every point: it was just fetched. -/
theorem before0_0 (c : Dev nD) (t : Fin (cfgM m).N) (d) : (dats m 0 c).before 0 t d = iblk m c 0 t :=
  before_in_of m (dats m 0 c) 0 rfl (A_eq m c 0) (fetch0_0 (adm m)) t d (by unfold Dat.fetched Dat.blockOf iblk; rw [A_eq]; try rfl)
theorem before0_1 (c : Dev nD) (t : Fin (cfgM m).N) (d) : (dats m 0 c).before 1 t d = iblk m c 1 t :=
  before_in_of m (dats m 0 c) 1 rfl (A_eq m c 1) (fetch0_1 (adm m)) t d (by unfold Dat.fetched Dat.blockOf iblk; rw [A_eq]; try rfl)

/-- At a later point of a group the output's staging buffer holds what the body left at the point before: it was
    not written back in between. -/
theorem before0_2_B (c : Dev nD) (t : Fin (cfgM m).N) (h0 : ¬t.val % 8 = 0) (d) :
    (dats m 0 c).before 2 t d = (outsAt m c (t.val - 1) (Nat.lt_of_le_of_lt (Nat.sub_le _ _) t.isLt)) := by
  have hN : t.val < 32 := lt_of_lt_of_eq t.isLt (show (cfgM m).N = 32 from N_0)
  rw [Dat.before_out_kept _ 2 rfl t (by omega) (Bool.eq_false_iff.mpr fun h => by have := (flush0_2 (adm m) _).mp h; dsimp only at this; omega)
    (fun _ => rfl) (fun _ _ => rfl)]
  exact after0_2 m c _

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 (adm m) t) fullShare ((dats m 0 c).before 0 t d))
    ∗ (∃ d, owns (c : Thread nD τ) (ms0_1 (adm m) t) fullShare ((dats m 0 c).before 1 t d))
    ∗ (∃ d, owns (c : Thread nD τ) (ms0_2 (adm m) t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0_0 (adm m) t) fullShare ((dats m 0 c).after 0 t)
    ∗ owns (c : Thread nD τ) (ms0_1 (adm m) t) fullShare ((dats m 0 c).after 1 t)
    ∗ owns (c : Thread nD τ) (ms0_2 (adm m) t) fullShare ((dats m 0 c).after 2 t))

set_option maxHeartbeats 800000 in
/-- The body at any point: the inputs' memrefs hold their blocks; the point either opens a group or continues one, and
    in the second case the output's buffer holds what the point before left; so the case's run applies; the invariant's
    table buffer is lent to the run and returned; the core owes nothing throughout. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = iprop(Pipeline.ΦA spec0 c ∗ Pipeline.prefHeld pre0 c (fun _ => fullShare) (tbl m)) from rfl, prefHeld_eq]
  have hN : t.val < 32 := lt_of_lt_of_eq t.isLt (show (cfgM m).N = 32 from N_0)
  by_cases h0 : t.val % 8 = 0
  · rw [outsAt_A m c t h0]
    unfold out_A
    iintro ⟨⟨HΦ, HT⟩, Ho, ⟨%d0, H0⟩, ⟨%d1, H1⟩, ⟨%d2, H2⟩⟩
    iapply ((kernelRun_A c (grid0.coords t) _ _ _ _ _ _ ((hcond0 t).mpr h0) (iblk m c 0 t) (iblk m c 1 t) (tblBuf m c)).2 Set.univ _)
    isplitl [H0]; · iexact H0
    isplitl [H1]; · iexact H1
    isplitl [H2]; · iexists _; iexact H2
    isplitl [HT]; · iexact HT
    iintro ⟨H0, H1, ⟨%e2, H2⟩, HT⟩
    isplitl [HΦ HT]
    · isplitl [HΦ]; · iexact HΦ
      iexact HT
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _)
  · rw [outsAt_B m c t h0]
    simp only [before0_2_B m c t h0]
    unfold out_B
    iintro ⟨⟨HΦ, HT⟩, Ho, ⟨%d0, H0⟩, ⟨%d1, H1⟩, ⟨%d2, H2⟩⟩
    iapply ((kernelRun_B c (grid0.coords t) _ _ _ _ _ _ (fun h => h0 ((hcond0 t).mp h)) (iblk m c 0 t) (iblk m c 1 t) _ (tblBuf m c)).2 Set.univ _)
    isplitl [H0]; · iexact H0
    isplitl [H1]; · iexact H1
    isplitl [H2]; · iexact H2
    isplitl [HT]; · iexact HT
    iintro ⟨H0, H1, ⟨%e2, H2⟩, HT⟩
    isplitl [HΦ HT]
    · isplitl [HΦ]; · iexact HΦ
      iexact HT
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Final.lean ====
/-
  The buffers' contents after the region and at the end of the program, as valuations: when the region is left the
  windows' arrays hold what the pipeline computes from the proof data and every other buffer is as the region found it;
  the three later stretches of host operations then run from there.
-/
import proofs.«417268_j40742059770679_1_alg».proof.Proof.K.Data
import Idealize.ShloMosaic.Lib.Pipeline.FrameSuffix
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is left. -/
def W1 (c : Dev nD) : Valuation τ sig (Elt F) :=
  Pipeline.withArrays spec0 c (StableHlo.after (hostOps0 (F := F)) (V₀ m c)) (fun w => (dats m 0 c).arrAt w (cfgM m).N)

/-- Core `c`'s buffers at the end of the program: the three later stretches have run. -/
def Wfin (c : Dev nD) : Valuation τ sig (Elt F) :=
  StableHlo.after (hostOps1_2 (F := F)) (StableHlo.after (hostOps1_1 (F := F)) (StableHlo.after (hostOps1 (F := F)) (W1 m c)))

end Cert.Kernel.Hand

end
-- ==== Proof.K.Run.lean ====
/-
  The whole program's run.

  @main is five host operations (they compute the table of sample lengths), one kernel region (the pipeline over the
  grid of 32 points, whose index maps and body read that table), and three further stretches of host operations, which
  read the region's result and the table again. The program is run as the list of these five segments: between two
  segments a core holds every unscoped buffer at the valuation reached so far, beside what it owes (nothing) and the
  generator register. At the region's entry the unscoped buffers are sorted into the windows' arrays, the table and the
  rest; the table enters the region's invariant whole and comes back whole; at the exit the three parts are put together
  again, the arrays at what the pipeline computes. At the end every unscoped buffer is read against the final memory.
-/
import proofs.«417268_j40742059770679_1_alg».proof.Proof.K.Final
import Idealize.ShloMosaic.Lib.Pipeline.Regions
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No body takes a variant. -/
abbrev run𝒱 : Variants := Variants.none
/-- No core owes another anything: no level is assigned. -/
abbrev runL : GSem nD τ sig → Finset Unit := fun _ => ∅
abbrev runLv : GSem nD τ sig → Unit → ℕ := fun _ _ => 0
/-- The one pipeline's table contents: the sample lengths the first stretch leaves. -/
abbrev runAdm : (p : Fin 1) → (pcfgs (F := F) p).Adm := fun _ => adm m

/-- What rides beside the buffers from segment to segment: what the core owes (nothing) and the generator register. -/
abbrev runR (c : Dev nD) : sProp 𝕄 :=
  iprop((∃ W, owes (c : Thread nD τ) (0 : CellTallies nD τ sig Unit) W) ∗ ∃ r, prngReg c r)

/-! ## The buffers around the region -/

set_option backward.isDefEq.respectTransparency.types false in
/-- Every unscoped buffer at the region's exit valuation is the windows' arrays at what the pipeline computes, the table
    at its contents, and every other buffer as the region found it. -/
theorem held_W1 (c : Dev nD) :
    (StableHlo.held (c : Thread nD τ) (Pipeline.ucRefs τ sig) (W1 m c) : sProp 𝕄)
      = iprop((dats m 0 c).arrays ((dats m 0 c).arrAt · (cfgM m).N)
          ∗ Pipeline.prefHeld pre0 c (fun _ => fullShare) (tbl m)
          ∗ Pipeline.unscopedRestP pre0 spec0 c (V m c)) := by
  have h1 := Pipeline.unscopedBufs_held (Ix := Unit) (Name := ℕ) (U := UR sig nD τ) (Lvl := ℕ) c (W1 m c)
  have h2 := Pipeline.unscopedBufs_split (Ix := Unit) (Name := ℕ) (U := UR sig nD τ) (Lvl := ℕ) (Val := Elt F)
    (Pipeline.pin (pcfgs (F := F)) (runAdm m)) 0 winFacts0.arr_unscoped winFacts0.arr_inj c (fun b => W1 m c b)
  have h3 := Pipeline.unscopedRest_split (Ix := Unit) (Name := ℕ) (U := UR sig nD τ) (Lvl := ℕ) preFacts0 c (fun b => W1 m c b)
  have h4 := Pipeline.arrays_eq (Pipeline.pin (pcfgs (F := F)) (runAdm m)) (dats m) 0 c arr_whole0 ((dats m 0 c).share_full fun _ => rfl)
    ((dats m 0 c).arrAt · (cfgM m).N)
  rw [h4]
  refine h1.symm.trans (h2.trans ?_)
  refine congrArg₂ (fun P Q : sProp 𝕄 => iprop(P ∗ Q)) (bigSep_congr fun w _ => ?_)
    (h3.trans (congrArg₂ (fun P Q : sProp 𝕄 => iprop(P ∗ Q)) ?_ ?_))
  · -- a window's array: the exit valuation is the pipeline's final contents there
    refine congrArg (fun f => ((c : Thread nD τ).loc (Pipeline.arrRef spec0 w) ↦{fullShare} f : sProp 𝕄)) ?_
    exact Pipeline.withArrays_arr spec0 winFacts0.arr_inj c _ _ w
  · -- the table is no window's array: it is as the region found it
    refine congrArg (Pipeline.prefHeld pre0 c (fun _ => fullShare)) (funext fun k => ?_)
    refine (Pipeline.withArrays_of_ne spec0 c _ _ (pre0.ref k) fun w e => preFacts0.disj k w e.symm).trans ?_
    exact V_pre m c k
  · -- nor is any buffer of the rest
    unfold Pipeline.unscopedRestP
    refine bigSep_congr fun b hb => ?_
    refine congrArg (fun f => ((c : Thread nD τ).loc b ↦{fullShare} f : sProp 𝕄)) ?_
    exact Pipeline.withArrays_of_ne spec0 c _ _ b fun w e =>
      (Finset.mem_sdiff.mp (Finset.mem_sdiff.mp hb).1).2 (Finset.mem_image.mpr ⟨w, Finset.mem_univ _, e⟩)

/-! ## The segments -/

/-- THE FIRST STRETCH: the five operations that make the table, over the unscoped buffers at the launch contents. -/
def runSeg0 : Pipeline.HostSeg (Name := ℕ) (U := UR sig nD τ) (pcfgs (F := F)) defs₀ run𝒱 runL runLv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) runR

/-- THE STRETCH AFTER THE REGION: twelve operations, from the region's exit valuation; they read the region's result and
    the table. -/
def runSeg1 : Pipeline.HostSeg (Name := ℕ) (U := UR sig nD τ) (pcfgs (F := F)) defs₀ run𝒱 runL runLv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m) runR

/-- THE SELECTION's two operations, -/
def runSeg2 : Pipeline.HostSeg (Name := ℕ) (U := UR sig nD τ) (pcfgs (F := F)) defs₀ run𝒱 runL runLv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h)
    (fun c => StableHlo.after (hostOps1 (F := F)) (W1 m c)) runR

/-- and THE LAST STRETCH: the sum and the mean. -/
def runSeg3 : Pipeline.HostSeg (Name := ℕ) (U := UR sig nD τ) (pcfgs (F := F)) defs₀ run𝒱 runL runLv :=
  Pipeline.HostSeg.ofOps _ _ _ _ _ (Pipeline.ucRefs τ sig) hostOps1_2
    (fun op h => Pipeline.sub_ucRefs op ((List.forall_iff_forall_mem.mp hostOps1_2_sub) op h))
    (by intro _ h; (repeat (cases h with | head => rfl | tail _ h => ?_)); exact nomatch h)
    (fun c => StableHlo.after (hostOps1_1 (F := F)) (StableHlo.after (hostOps1 (F := F)) (W1 m c))) runR

set_option backward.isDefEq.respectTransparency.types false in
/-- THE REGION: the windows' decided layout, no semaphore of the kernel's own, the body obligation. Entered from what the
    first stretch left: the windows' arrays go to the pipeline, the table whole and the generator register into the
    invariant, every other buffer past the region. Left with the arrays at their final contents, the table and the
    register given back, the buffers put together again at the exit valuation. -/
def runReg0 : Pipeline.RegionSeg (pcfgs (F := F)) (runAdm m) (dats m) () defs₀ run𝒱 runL runLv 0 where
  win := winFacts0.to₀
  block_pos := block_pos0
  stage_whole := stage_whole0
  K := PEmpty
  osem := fun k => k.elim
  ho := Pipeline.OwnSemFacts.none _
  hbody c := (body_obligation m c).loose
  hwaits := Pipeline.hwaits_of_owed_zero _ _ _ _ runL runLv 0 fun _ _ => rfl
  pre c := iprop(StableHlo.held (c : Thread nD τ) (Pipeline.ucRefs τ sig) (StableHlo.after (hostOps0 (F := F)) (V₀ m c)) ∗ runR c)
  post c := iprop(StableHlo.held (c : Thread nD τ) (Pipeline.ucRefs τ sig) (W1 m c) ∗ runR c)
  X c := iprop(∃ r, prngReg c r)
  Y c := iprop((∃ r, prngReg c r) ∗ Pipeline.prefHeld pre0 c (fun _ => fullShare) (tbl m))
  Z c := Pipeline.unscopedRestP pre0 spec0 c (V m c)
  hentry c := by
    -- the unscoped buffers as the first stretch left them: the arrays, the table, the rest
    have hsplit : (StableHlo.held (c : Thread nD τ) (Pipeline.ucRefs τ sig) (StableHlo.after (hostOps0 (F := F)) (V₀ m c)) : sProp 𝕄)
        ⊢ iprop((dats m 0 c).arrays ((dats m 0 c).arrAt · 0) ∗ Pipeline.prefHeld pre0 c (fun _ => fullShare) (tbl m)
            ∗ Pipeline.unscopedRestP pre0 spec0 c (V m c)) := by
      rw [← Pipeline.unscopedBufs_held (Ix := Unit) (Name := ℕ) (U := UR sig nD τ) (Lvl := ℕ) c (StableHlo.after (hostOps0 (F := F)) (V₀ m c))]
      refine (Pipeline.arrays_of_unscopedBufs (pcfgs (F := F)) (runAdm m) (dats m) winFacts0 arr_whole0 c
        ((dats m 0 c).share_full fun _ => rfl) (V m c) fun _ => rfl).trans (sep_mono .rfl (Entails.of_eq ?_))
      refine (Pipeline.unscopedRest_split (Ix := Unit) (Name := ℕ) (U := UR sig nD τ) (Lvl := ℕ) preFacts0 c (V m c)).trans ?_
      rw [show (fun k => V m c (pre0.ref k)) = tbl m from funext (V_pre m c)]
    iintro ⟨⟨Hub, HO, Hp⟩, -, -⟩
    ihave H := hsplit $$ Hub
    icases H with ⟨Ha, Ht, Hz⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Φc m c from rfl]
    unfold Φc Pipeline.ΦA
    iintro ⟨Hp, Ht, Hr⟩
    isplitr [Ht]
    · isplitl [Hr]; · iexact Hr
      iexact Hp
    · iexact Ht
  hout c := by
    rw [Pipeline.ownSems0_none, show (dats m 0 c).Φ (Fin.last (Pipeline.pin (pcfgs (F := F)) (runAdm m) 0).N) = Φc m c from rfl]
    unfold Φc Pipeline.ΦA
    iintro ⟨⟨Hr, Hp⟩, Ht⟩
    isplitl [Hp Ht]
    · isplitl [Hp]; · iexact Hp
      iexact Ht
    isplitr; · iempintro
    iexact Hr
  hexit c := by
    rw [held_W1 m c]
    iintro ⟨Ha, HO, ⟨Hp, Ht⟩, Hz⟩
    imodintro
    isplitl [Ha Ht Hz]
    · isplitl [Ha]; · iexact Ha
      isplitl [Ht]; · iexact Ht
      iexact Hz
    isplitl [HO]
    · unfold Pipeline.Dat.owesAt Pipeline.owesWithin
      icases HO with ⟨%W, -, HO⟩; iexists W; iexact HO
    iexact Hp

/-- @main as the list of the five. -/
abbrev runSegs : List (Pipeline.Seg (pcfgs (F := F)) (runAdm m) (dats m) () defs₀ run𝒱 runL runLv) :=
  [.host (runSeg0 m), .region (runReg0 m), .host (runSeg1 m), .host (runSeg2 m), .host (runSeg3 m)]

/-- The last thread state: every unscoped buffer at the final valuation, and the generator register. -/
abbrev runTₙ (c : Dev nD) : sProp 𝕄 :=
  iprop(StableHlo.held (c : Thread nD τ) (Pipeline.ucRefs τ sig) (Wfin m c) ∗ ∃ r, prngReg c r)

set_option backward.isDefEq.respectTransparency.types false in
/-- At the compiled mesh, for any float values, from any memory with zero counters: every weakly fair execution of
    @main on the TensorCores terminates, and in every final state each unscoped buffer of each core holds the final
    valuation's contents. -/
theorem run_main : θ_run defs (onTc (τ := τ) (main (F := F))) ⟨m, fun _ => 0, ρ⟩
    (fun r => ∀ c : Dev nD, ∀ b : Ref sig .tc, (Proc.devRef .tc b : DevRef τ sig) ∈ Pipeline.ucRefs τ sig →
      r.2.mem ((c.tc : Thread nD τ).loc b) = Wfin m c (Proc.devRef .tc b)) :=
  Pipeline.θ_run_regions_kit (pcfgs (F := F)) (runAdm m) (dats m) () (cellOf_inj (runAdm m)) emb₁ defs₀ run𝒱 runL runLv m ρ main (runSegs m)
    (fun c Q => by
      rw [main_chain c, show (Pipeline.chain
        [ StableHlo.seq hostOps0,
          Prog.lift (.customCall (Pipeline.entry 0) ()),
          StableHlo.seq hostOps1,
          StableHlo.seq hostOps1_1,
          StableHlo.seq hostOps1_2 ] : Prog (TpuEff nD τ sig (Elt F) (Pipeline.Sig Λ₀ (Fin 1) fun p => (pcfgs (F := F) p).Adm) .tc) PUnit)
          = Pipeline.Seg.run (runSegs m) from (Pipeline.Seg.run_eq_chain (runSegs m)).symm])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (runAdm m)) (cellOf_inj (runAdm m)))
      (Pipeline.launchToks (Pipeline.pin (pcfgs (F := F)) (runAdm m)) (cellOf_inj (runAdm m))))
    (hu₀ := by
      iintro Hu; imodintro
      isplitl [Hu]
      · iapply (show (ownU _ : sProp 𝕄) ⊢ BI.own (emb₁ (initOf (Pipeline.cells (Pipeline.pin (pcfgs (F := F)) (runAdm m)) (cellOf_inj (runAdm m)))
          (Pipeline.launchToks (Pipeline.pin (pcfgs (F := F)) (runAdm m)) (cellOf_inj (runAdm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ runR c)) (Tₙ := runTₙ m)
    (hch := ⟨fun _ => .rfl, fun _ => .rfl, fun _ => .rfl, fun _ => .rfl, fun _ => .rfl, fun c => by
      show iprop(StableHlo.held (c : Thread nD τ) (Pipeline.ucRefs τ sig) (Wfin m c) ∗ runR c) ⊢ _
      iintro ⟨Hh, HO, Hp⟩
      isplitr [HO]
      · isplitl [Hh]; · iexact Hh
        iexact Hp
      · iexact HO⟩)
    (hinit := by
      refine Pipeline.initEach runL runLv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem ((c : Thread nD τ).1, b) = Wfin m c b)
    (hfin := fun c s' => by
      unfold runTₙ StableHlo.held
      iintro ⟨⟨Hh, -⟩, HSI⟩
      imodintro
      iapply (pointsTo_read_all (Pipeline.ucRefs τ sig) (fun b => ((c : Thread nD τ).1, b)) (Wfin m c) s')
      isplitl [Hh] <;> iassumption)
    (hQ := fun s h c b hb => h c _ hb)

/-- info: 'Cert.Kernel.Hand.run_main' depends on axioms: [propext, Classical.choice, Quot.sound] -/
#guard_msgs in #print axioms run_main

end Cert.Kernel.Hand

end
-- ==== Proof.K.Args.lean ====
/-
  The argument arrays and the table, read back. No host operation writes an argument array, and the pipeline leaves
  its input arrays as it found them: the three arguments reach the region, and the end of the program, as launched
  (for any float values). The table the region finds is the first stretch's term: the row sums of the mask, less two.
-/
import proofs.«417268_j40742059770679_1_alg».proof.Proof.K.Final

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

section
variable {F : FTy → Type} [FloatOps F] (m : (ℓ : Loc nD τ sig) → Buf (Elt F) ℓ)

/-- A reference that is none of the first stretch's five results is written by none of its operations. -/
private theorem not_written0 (b : Ref sig .tc)
    (hb : b ≠ main_c ∧ b ≠ main_v0 ∧ b ≠ main_c_0 ∧ b ≠ main_v1 ∧ b ≠ main_v2) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

theorem V_arg0 (c : Dev nD) : V m c main_arg0 = m (c, main_arg0) :=
  StableHlo.after_of_forall_not_mem (b := Proc.devRef .tc main_arg0) hostOps0 (V₀ m c) (not_written0 main_arg0 (by decide))
theorem V_arg1 (c : Dev nD) : V m c main_arg1 = m (c, main_arg1) :=
  StableHlo.after_of_forall_not_mem (b := Proc.devRef .tc main_arg1) hostOps0 (V₀ m c) (not_written0 main_arg1 (by decide))
theorem V_arg2 (c : Dev nD) : V m c main_arg2 = m (c, main_arg2) :=
  StableHlo.after_of_forall_not_mem (b := Proc.devRef .tc main_arg2) hostOps0 (V₀ m c) (not_written0 main_arg2 (by decide))

/-- The table as the region finds it: the row sums of the mask, less two. -/
theorem V_v2 (c : Dev nD) : V m c main_v2
    = subi (Host.reduce IntOp.addi (m (c, main_arg1)) (constantI S_ 32 0#32) Facts₀.reducesTo_S32x1024_S32_d1 Facts₀.h_S_)
        (broadcastInDim S32 ![] Facts₀.bcast_S_S32 (constantI S_ 32 2#32)) := by
  show StableHlo.after (hostOps0 (F := F)) (fun b => m (c, b)) (Proc.devRef .tc main_v2) = _
  after_results

/-- A reference that is none of the twelve results of the stretch after the region is written by none of its operations. -/
private theorem not_written1 (b : Ref sig .tc)
    (hb : b ≠ main_v4 ∧ b ≠ main_v5 ∧ b ≠ main_v6 ∧ b ≠ main_v7 ∧ b ≠ main_cst ∧ b ≠ main_v8 ∧ b ≠ main_v9 ∧ b ≠ main_c_1
      ∧ b ≠ main_v10 ∧ b ≠ main_v11 ∧ b ≠ main_v12 ∧ b ≠ main_cst_2) :
    ∀ op ∈ (hostOps1 (F := F)), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- Nor by the called function's two operations, when it is neither of their results. -/
private theorem not_written1_1 (b : Ref sig .tc) (hb : b ≠ main_call0_v0 ∧ b ≠ main_v13) :
    ∀ op ∈ (hostOps1_1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.ternary_writes, Finset.mem_singleton] <;>
    exact StableHlo.devRef_ne_of_ne ‹_›

/-- Nor by the last stretch's four operations, when it is none of their results. -/
private theorem not_written1_2 (b : Ref sig .tc) (hb : b ≠ main_cst_3 ∧ b ≠ main_v14 ∧ b ≠ main_cst_4 ∧ b ≠ main_v15) :
    ∀ op ∈ (hostOps1_2 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- A buffer none of the three later stretches writes ends as the region left it. -/
private theorem Wfin_of_not_written (c : Dev nD) (b : Ref sig .tc)
    (h1 : b ≠ main_v4 ∧ b ≠ main_v5 ∧ b ≠ main_v6 ∧ b ≠ main_v7 ∧ b ≠ main_cst ∧ b ≠ main_v8 ∧ b ≠ main_v9 ∧ b ≠ main_c_1
      ∧ b ≠ main_v10 ∧ b ≠ main_v11 ∧ b ≠ main_v12 ∧ b ≠ main_cst_2)
    (h2 : b ≠ main_call0_v0 ∧ b ≠ main_v13) (h3 : b ≠ main_cst_3 ∧ b ≠ main_v14 ∧ b ≠ main_cst_4 ∧ b ≠ main_v15) :
    Wfin m c (Proc.devRef .tc b) = W1 m c (Proc.devRef .tc b) := by
  unfold Wfin
  rw [StableHlo.after_of_forall_not_mem (b := Proc.devRef .tc b) hostOps1_2 _ (not_written1_2 b h3),
    StableHlo.after_of_forall_not_mem (b := Proc.devRef .tc b) hostOps1_1 _ (not_written1_1 b h2),
    StableHlo.after_of_forall_not_mem (b := Proc.devRef .tc b) hostOps1 _ (not_written1 b h1)]

/-- An input window's array leaves the region as it entered it. -/
private theorem W1_in (c : Dev nD) (w : Fin (cfgM m).W) (hin : ((cfgM m).win w).isOut = false) :
    W1 m c (Proc.devRef .tc (Pipeline.arrRef spec0 w)) = V m c (Pipeline.arrRef spec0 w) := by
  unfold W1
  rw [Pipeline.withArrays_arr spec0 winFacts0.arr_inj c _ _ w, Dat.arrAt_in (dats m 0 c) w hin, A_eq]

theorem Wfin_arg0 (c : Dev nD) : Wfin m c (Proc.devRef .tc main_arg0) = m (c, main_arg0) := by
  rw [Wfin_of_not_written m c main_arg0 (by decide) (by decide) (by decide)]
  exact (W1_in m c 0 rfl).trans (V_arg0 m c)

theorem Wfin_arg1 (c : Dev nD) : Wfin m c (Proc.devRef .tc main_arg1) = m (c, main_arg1) := by
  rw [Wfin_of_not_written m c main_arg1 (by decide) (by decide) (by decide)]
  unfold W1
  rw [Pipeline.withArrays_of_ne spec0 c _ _ main_arg1 (by decide)]
  exact V_arg1 m c

theorem Wfin_arg2 (c : Dev nD) : Wfin m c (Proc.devRef .tc main_arg2) = m (c, main_arg2) := by
  rw [Wfin_of_not_written m c main_arg2 (by decide) (by decide) (by decide)]
  exact (W1_in m c 1 rfl).trans (V_arg2 m c)
end

end Cert.Kernel.Hand

end
-- ==== Proof.KI.Sched.lean ====
/-
  The pipeline's schedule on the grid of 4 x 8 points, and the names the body's runs are stated over.

  Point t = 8 g + l works on sample t: both input windows move to block t at every point, so each is fetched at
  every point; the output window's block index is g, so its staging buffer is kept through the eight points of a
  group and written back at the last of them. The body's one branch is taken at the first point of a group.
-/
import proofs.«417268_j40742059770679_1_alg».proof.Proof.Gen.KernelIdeal.Launch
import proofs.«417268_j40742059770679_1_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first input window (the input array) is fetched at every point, whatever the table holds. -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- The second input window (the target array) is fetched at every point. -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- The output window is written back exactly at the last point of each group of eight. -/
theorem flush0_2 (a : (pcfg0 (F := F)).Adm) : ∀ t : Fin (cfg0 a).N, ((cfg0 a).win 2).flush t = true ↔ t.val % 8 = 7 :=
  (by decide +kernel : ∀ t : Fin grid0.N, Pipeline.Window.flushOf grid0 true cc0_transform_2 t = true ↔ t.val % 8 = 7)

/-- The body's branch condition from the grid coordinates: the second coordinate is zero. -/
abbrev cond0 (i : grid0.Coords) : Prop :=
  (Scalar.cmpi .ne (Scalar.extui (Scalar.cmpi .eq (BitVec.ofNat 32 (i 1).val) 0#32)) 0#32) = 1#1
/-- It holds exactly at the first point of each group of eight. -/
theorem hcond0 : ∀ t : Fin grid0.N, cond0 (grid0.coords t) ↔ t.val % 8 = 0 := by decide +kernel

/-- Each window's current staging memref at point `t`, and its wholeness. -/
abbrev ms0_0 (a : (pcfg0 (F := F)).Adm) (t : Fin (cfg0 a).N) : Memref sig .tc .vmem S1x1024x1024 .f32 := spec0_0.stage ((cfg0 a).slots t 0)
abbrev hs0_0 (a : (pcfg0 (F := F)).Adm) (t : Fin (cfg0 a).N) : (ms0_0 a t).IsWhole := hstage0_0 (((cfg0 a).slots t 0).cast nbuf0_0)
abbrev ms0_1 (a : (pcfg0 (F := F)).Adm) (t : Fin (cfg0 a).N) : Memref sig .tc .vmem S1x1024x1024 .f32 := spec0_1.stage ((cfg0 a).slots t 1)
abbrev hs0_1 (a : (pcfg0 (F := F)).Adm) (t : Fin (cfg0 a).N) : (ms0_1 a t).IsWhole := hstage0_1 (((cfg0 a).slots t 1).cast nbuf0_1)
abbrev ms0_2 (a : (pcfg0 (F := F)).Adm) (t : Fin (cfg0 a).N) : Memref sig .tc .vmem S8x128 .f32 := spec0_2.stage ((cfg0 a).slots t 2)
abbrev hs0_2 (a : (pcfg0 (F := F)).Adm) (t : Fin (cfg0 a).N) : (ms0_2 a t).IsWhole := hstage0_2 (((cfg0 a).slots t 2).cast nbuf0_2)

/-- The table of sample lengths as the body is handed it: its whole buffer in scalar memory. -/
abbrev tbM : Memref sig .tc .smem S32 .i32 := Memref.whole main_v2
abbrev htbM : tbM.IsWhole := Memref.isWhole_whole _
/-- The table's buffer on core `c`, and that buffer held whole at contents `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- One staging buffer of the output window, through which its contents are stated. -/
abbrev VO : View sig .tc .vmem S8x128 .f32 := (Memref.whole cc0_stg2_0 : Memref sig .tc .vmem S8x128 .f32).view

/-- The kernel body as the pipeline calls it at point `t`. -/
abbrev bodyAt0 (a : (pcfg0 (F := F)).Adm) (t : Fin (cfg0 a).N) : Prog (TpuEff nD τ sig (Elt F) Λ₀ .tc) PUnit :=
  cc0__loss_kernel (grid0.coords t) (Memref.whole main_v2) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

end Cert.KernelIdeal.Hand

end
-- ==== Proof.KI.BodyA.lean ====
/-
  The kernel body run whole on any whole staging memrefs, at a point that opens a group of eight: the branch is taken, the output block is reset to zero and then receives the sample's sum in its row.
-/
import proofs.«417268_j40742059770679_1_alg».proof.Proof.KI.Sched
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), with the proof that on whole
    staging memrefs — the inputs' at their contents, the table's buffer at its contents — the body runs to the
    continuation holding the inputs and the table as they were and the output's buffer with those pieces written. -/
noncomputable def kernelRun_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L) ∗ tbPt c xt) -∗ K ⟨⟩))
          ⊢ wp frame (wpE (defs₀ (F := F)) Variants.none c none) E (cc0__loss_kernel i tbM htbM arg3 harg3 arg4 harg4 arg5 harg5) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%d2, %f2, -, H2⟩, HT, Hk⟩
    obtain rfl := harg3.eq_unread hf0
    obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact HT

end Cert.KernelIdeal.Hand

end
-- ==== Proof.KI.BodyB.lean ====
/-
  The kernel body run whole on any whole staging memrefs, at a later point of a group of eight: the branch is not taken, and the sample's sum is added into its row of what the point before left.
-/
import proofs.«417268_j40742059770679_1_alg».proof.Proof.KI.Sched
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), with the proof that on whole
    staging memrefs — the inputs' at their contents, the table's buffer at its contents — the body runs to the
    continuation holding the inputs and the table as they were and the output's buffer with those pieces written. -/
noncomputable def kernelRun_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo ∗ tbPt c xt
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L) ∗ tbPt c xt) -∗ K ⟨⟩))
          ⊢ wp frame (wpE (defs₀ (F := F)) Variants.none c none) E (cc0__loss_kernel i tbM htbM arg3 harg3 arg4 harg4 arg5 harg5) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, HT, Hk⟩
    obtain rfl := harg3.eq_unread hf0
    obtain rfl := harg4.eq_unread hf1
    obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact HT

end Cert.KernelIdeal.Hand

end
-- ==== Proof.KI.Outs.lean ====
/-
  What each case of the body leaves in the output's staging buffer: the pieces its run found, read back; and that
  those pieces cover the whole 8 x 128 block (each case ends with a store of the whole block).
-/
import proofs.«417268_j40742059770679_1_alg».proof.Proof.KI.BodyA
import proofs.«417268_j40742059770679_1_alg».proof.Proof.KI.BodyB
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of a point that opens a group tile the output block, so they cover it. -/
theorem cover_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) (y : S8x128.Idx) :
    ∃ pc ∈ (kernelRun_A c i arg3 harg3 arg4 harg4 arg5 harg5 hc0 x0 x1 xt).1, y ∈ pc.1.set :=
  View.cover_of_tiledL (kernelRun_A c i arg3 harg3 arg4 harg4 arg5 harg5 hc0 x0 x1 xt).1 S8x128.size (by sl_kernel_rfl) y

/-- What a point that opens a group leaves in the output's staging buffer: its pieces read back over anything. -/
def out_A (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) : Vec F S8x128 .f32 :=
  VO.read (Elt F) (VO.writes (Elt F) VO.junk (kernelRun_A c i arg3 harg3 arg4 harg4 arg5 harg5 hc0 x0 x1 xt).1)

/-- The pieces of a later point of a group tile the output block, so they cover it. -/
theorem cover_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) (y : S8x128.Idx) :
    ∃ pc ∈ (kernelRun_B c i arg3 harg3 arg4 harg4 arg5 harg5 hc0 x0 x1 xo xt).1, y ∈ pc.1.set :=
  View.cover_of_tiledL (kernelRun_B c i arg3 harg3 arg4 harg4 arg5 harg5 hc0 x0 x1 xo xt).1 S8x128.size (by sl_kernel_rfl) y

/-- What a later point of a group leaves in the output's staging buffer, over what the point before left (`xo`). -/
def out_B (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) : Vec F S8x128 .f32 :=
  VO.read (Elt F) (VO.writes (Elt F) VO.junk (kernelRun_B c i arg3 harg3 arg4 harg4 arg5 harg5 hc0 x0 x1 xo xt).1)

end Cert.KernelIdeal.Hand

end
-- ==== Proof.KI.Data.lean ====
/-
  The pipeline's proof data.

  When the region is entered the first host stretch has run: the sample lengths n = (row sums of the mask) - 2 sit in
  the table's buffer. Point t = 8 g + l reads sample t's blocks of the two input arrays and the table word n[t]; the
  output's staging buffer holds, after point t, what the group's points up to t accumulated: reset at l = 0, then one
  row's sum added per point. The invariant carried from point to point is the scoped rest, the generator register and
  the table's buffer, whole, at its contents.
-/
import proofs.«417268_j40742059770679_1_alg».proof.Proof.KI.Outs
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers at launch, as the host operations' valuation; -/
abbrev V₀ (c : Dev nD) : Valuation τ sig (Elt F) := fun b => m (c, b)
/-- and when the region is entered: the five operations of the first stretch have run. -/
abbrev V (c : Dev nD) (b : Ref sig .tc) : Buf (Elt F) ((c : Thread nD τ).loc b) := StableHlo.after (hostOps0 (F := F)) (V₀ m c) b

/-! ## The table -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- No index map reads the table: every contents is admissible. -/
abbrev adm : (pcfg0 (F := F)).Adm := ⟨tbl m, by show ok0 (tbl m); unfold ok0; trivial⟩
/-- The pipeline at the table's contents. -/
abbrev cfgM : Pipeline.Cfg sig Λ₀ := cfg0 (adm m)
/-- The table's buffer contents as the body's run names them. -/
abbrev tblBuf (c : Dev nD) : TbBuf (F := F) c := tbl m 0

/-- The table held whole is the one buffer's points-to. -/
theorem prefHeld_eq (c : Dev nD) :
    (Pipeline.prefHeld pre0 c (fun _ => fullShare) (tbl m) : sProp 𝕄) = tbPt c (tblBuf m c) := by
  unfold Pipeline.prefHeld
  rw [show (Finset.univ : Finset (Fin 1)) = {(0 : Fin 1)} from by decide, bigSep_singleton]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, for any proof data whose array is the
    region-entry contents and whose body leaves the block in place. -/
theorem before_in_of {c : Dev nD} (dat : Dat τ (Elt F) Unit ℕ (UR sig nD τ) ℕ (cfgM m) c) (w : Fin (cfgM m).W) (hw : ((cfgM m).win w).isOut = false)
    (hA : dat.A w = V m c (Pipeline.arrRef spec0 w)) (hf : ∀ t, ((cfgM m).win w).fetch t = true)
    (t : Fin (cfgM m).N) (d) (hfill : dat.fetched w t d = iblk m c w t) : dat.before w t d = iblk m c w t :=
  (dat.before_fetched w t (hf t) d).trans hfill

/-! ## What the output holds after each point -/

/-- THE ACCUMULATION: what the output's staging buffer holds after the body at position `n`. -/
def outsAt (c : Dev nD) : (n : ℕ) → n < (cfgM m).N → Vec F S8x128 .f32
  | 0, hn => out_A c (grid0.coords ⟨0, hn⟩) (ms0_0 (adm m) ⟨0, hn⟩) (hs0_0 (adm m) ⟨0, hn⟩) (ms0_1 (adm m) ⟨0, hn⟩) (hs0_1 (adm m) ⟨0, hn⟩) (ms0_2 (adm m) ⟨0, hn⟩) (hs0_2 (adm m) ⟨0, hn⟩)
      ((hcond0 ⟨0, hn⟩).mpr (Nat.zero_mod _)) (iblk m c 0 ⟨0, hn⟩) (iblk m c 1 ⟨0, hn⟩) (tblBuf m c)
  | n + 1, hn =>
    if h0 : (n + 1) % 8 = 0 then
      out_A c (grid0.coords ⟨n + 1, hn⟩) (ms0_0 (adm m) ⟨n + 1, hn⟩) (hs0_0 (adm m) ⟨n + 1, hn⟩) (ms0_1 (adm m) ⟨n + 1, hn⟩) (hs0_1 (adm m) ⟨n + 1, hn⟩) (ms0_2 (adm m) ⟨n + 1, hn⟩) (hs0_2 (adm m) ⟨n + 1, hn⟩)
        ((hcond0 ⟨n + 1, hn⟩).mpr h0) (iblk m c 0 ⟨n + 1, hn⟩) (iblk m c 1 ⟨n + 1, hn⟩) (tblBuf m c)
    else
      out_B c (grid0.coords ⟨n + 1, hn⟩) (ms0_0 (adm m) ⟨n + 1, hn⟩) (hs0_0 (adm m) ⟨n + 1, hn⟩) (ms0_1 (adm m) ⟨n + 1, hn⟩) (hs0_1 (adm m) ⟨n + 1, hn⟩) (ms0_2 (adm m) ⟨n + 1, hn⟩) (hs0_2 (adm m) ⟨n + 1, hn⟩)
        (fun h => h0 ((hcond0 ⟨n + 1, hn⟩).mp h)) (iblk m c 0 ⟨n + 1, hn⟩) (iblk m c 1 ⟨n + 1, hn⟩) (outsAt c n (Nat.lt_of_succ_lt hn)) (tblBuf m c)

/-- `outsAt` at a point that opens a group. -/
theorem outsAt_A (c : Dev nD) (t : Fin (cfgM m).N) (h0 : t.val % 8 = 0) :
    outsAt m c t.val t.isLt = out_A c (grid0.coords t) (ms0_0 (adm m) t) (hs0_0 (adm m) t) (ms0_1 (adm m) t) (hs0_1 (adm m) t) (ms0_2 (adm m) t) (hs0_2 (adm m) t)
      ((hcond0 t).mpr h0) (iblk m c 0 t) (iblk m c 1 t) (tblBuf m c) := by
  obtain ⟨n, hn⟩ := t
  cases n with
  | zero => exact rfl
  | succ n => exact (dif_pos h0).trans rfl

/-- `outsAt` at a later point of a group: over what the point before left. -/
theorem outsAt_B (c : Dev nD) (t : Fin (cfgM m).N) (h0 : ¬t.val % 8 = 0) :
    outsAt m c t.val t.isLt = out_B c (grid0.coords t) (ms0_0 (adm m) t) (hs0_0 (adm m) t) (ms0_1 (adm m) t) (hs0_1 (adm m) t) (ms0_2 (adm m) t) (hs0_2 (adm m) t)
      (fun h => h0 ((hcond0 t).mp h)) (iblk m c 0 t) (iblk m c 1 t) (outsAt m c (t.val - 1) (Nat.lt_of_le_of_lt (Nat.sub_le _ _) t.isLt)) (tblBuf m c) := by
  obtain ⟨n, hn⟩ := t
  cases n with
  | zero => exact (by exfalso; (try dsimp only at h0); exact absurd (Nat.zero_mod _) h0)
  | succ n => exact (dif_neg h0).trans rfl

/-! ## The proof data -/

/-- The invariant between points: the scoped rest and the generator register, and the table's buffer whole. -/
abbrev Φc (c : Dev nD) : sProp 𝕄 := iprop(Pipeline.ΦA spec0 c ∗ Pipeline.prefHeld pre0 c (fun _ => fullShare) (tbl m))

/-- The proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => (outsAt m c t.val t.isLt)
  Φ _ := Φc m c
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = (outsAt m c t.val t.isLt) := by dsimp only [dats]; try rfl

/-- Each input's current staging buffer holds its block at every point: it was just fetched. -/
theorem before0_0 (c : Dev nD) (t : Fin (cfgM m).N) (d) : (dats m 0 c).before 0 t d = iblk m c 0 t :=
  before_in_of m (dats m 0 c) 0 rfl (A_eq m c 0) (fetch0_0 (adm m)) t d (by unfold Dat.fetched Dat.blockOf iblk; rw [A_eq]; try rfl)
theorem before0_1 (c : Dev nD) (t : Fin (cfgM m).N) (d) : (dats m 0 c).before 1 t d = iblk m c 1 t :=
  before_in_of m (dats m 0 c) 1 rfl (A_eq m c 1) (fetch0_1 (adm m)) t d (by unfold Dat.fetched Dat.blockOf iblk; rw [A_eq]; try rfl)

/-- At a later point of a group the output's staging buffer holds what the body left at the point before: it was
    not written back in between. -/
theorem before0_2_B (c : Dev nD) (t : Fin (cfgM m).N) (h0 : ¬t.val % 8 = 0) (d) :
    (dats m 0 c).before 2 t d = (outsAt m c (t.val - 1) (Nat.lt_of_le_of_lt (Nat.sub_le _ _) t.isLt)) := by
  have hN : t.val < 32 := lt_of_lt_of_eq t.isLt (show (cfgM m).N = 32 from N_0)
  rw [Dat.before_out_kept _ 2 rfl t (by omega) (Bool.eq_false_iff.mpr fun h => by have := (flush0_2 (adm m) _).mp h; dsimp only at this; omega)
    (fun _ => rfl) (fun _ _ => rfl)]
  exact after0_2 m c _

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 (adm m) t) fullShare ((dats m 0 c).before 0 t d))
    ∗ (∃ d, owns (c : Thread nD τ) (ms0_1 (adm m) t) fullShare ((dats m 0 c).before 1 t d))
    ∗ (∃ d, owns (c : Thread nD τ) (ms0_2 (adm m) t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0_0 (adm m) t) fullShare ((dats m 0 c).after 0 t)
    ∗ owns (c : Thread nD τ) (ms0_1 (adm m) t) fullShare ((dats m 0 c).after 1 t)
    ∗ owns (c : Thread nD τ) (ms0_2 (adm m) t) fullShare ((dats m 0 c).after 2 t))

set_option maxHeartbeats 800000 in
/-- The body at any point: the inputs' memrefs hold their blocks; the point either opens a group or continues one, and
    in the second case the output's buffer holds what the point before left; so the case's run applies; the invariant's
    table buffer is lent to the run and returned; the core owes nothing throughout. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = iprop(Pipeline.ΦA spec0 c ∗ Pipeline.prefHeld pre0 c (fun _ => fullShare) (tbl m)) from rfl, prefHeld_eq]
  have hN : t.val < 32 := lt_of_lt_of_eq t.isLt (show (cfgM m).N = 32 from N_0)
  by_cases h0 : t.val % 8 = 0
  · rw [outsAt_A m c t h0]
    unfold out_A
    iintro ⟨⟨HΦ, HT⟩, Ho, ⟨%d0, H0⟩, ⟨%d1, H1⟩, ⟨%d2, H2⟩⟩
    iapply ((kernelRun_A c (grid0.coords t) _ _ _ _ _ _ ((hcond0 t).mpr h0) (iblk m c 0 t) (iblk m c 1 t) (tblBuf m c)).2 Set.univ _)
    isplitl [H0]; · iexact H0
    isplitl [H1]; · iexact H1
    isplitl [H2]; · iexists _; iexact H2
    isplitl [HT]; · iexact HT
    iintro ⟨H0, H1, ⟨%e2, H2⟩, HT⟩
    isplitl [HΦ HT]
    · isplitl [HΦ]; · iexact HΦ
      iexact HT
    isplitl [Ho]; · iexact Ho
    isplitl [H0]; · iexact H0
    isplitl [H1]; · iexact H1
    unfold owns; iexists _; isplitr
    swap; · iexact H2
    ipureintro; exact View.read_writes_of_cover _ _ _ _ _ (cover_A c _ _ _ _ _ _ _ _ _ _ _)
  · rw [outsAt_B m c t h0]
    simp only [before0_2_B m c t h0]
    unfold out_B
    iintro ⟨⟨HΦ, HT⟩, Ho, ⟨%d0, H0⟩, ⟨%d1, H1⟩, ⟨%d2, H2⟩⟩
    iapply ((kernelRun_B c (grid0.coords t) _ _ _ _ _ _ (fun h => h0 ((hcond0 t).mp h)) (iblk m c 0 t) (iblk m c 1 t) _ (tblBuf m c)).2 Set.univ _)
    isplitl [H0]; · iexact H0
    isplitl [H1]; · iexact H1
    isplitl [H2]; · iexact H2
    isplitl [HT]; · iexact HT
    iintro ⟨H0, H1, ⟨%e2, H2⟩, HT⟩
    isplitl [HΦ HT]
    · isplitl [HΦ]; · iexact HΦ
      iexact HT
    isplitl [Ho]; · iexact Ho
    isplitl [H0]; · iexact H0
    isplitl [H1]; · iexact H1
    unfold owns; iexists _; isplitr
    swap; · iexact H2
    ipureintro; exact View.read_writes_of_cover _ _ _ _ _ (cover_B c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Final.lean ====
/-
  The buffers' contents after the region and at the end of the program, as valuations: when the region is left the
  windows' arrays hold what the pipeline computes from the proof data and every other buffer is as the region found it;
  the three later stretches of host operations then run from there.
-/
import proofs.«417268_j40742059770679_1_alg».proof.Proof.KI.Data
import Idealize.ShloMosaic.Lib.Pipeline.FrameSuffix
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is left. -/
def W1 (c : Dev nD) : Valuation τ sig (Elt F) :=
  Pipeline.withArrays spec0 c (StableHlo.after (hostOps0 (F := F)) (V₀ m c)) (fun w => (dats m 0 c).arrAt w (cfgM m).N)

/-- Core `c`'s buffers at the end of the program: the three later stretches have run. -/
def Wfin (c : Dev nD) : Valuation τ sig (Elt F) :=
  StableHlo.after (hostOps1_2 (F := F)) (StableHlo.after (hostOps1_1 (F := F)) (StableHlo.after (hostOps1 (F := F)) (W1 m c)))

end Cert.KernelIdeal.Hand

end
-- ==== Proof.KI.Run.lean ====
/-
  The whole program's run.

  @main is five host operations (they compute the table of sample lengths), one kernel region (the pipeline over the
  grid of 32 points, whose index maps and body read that table), and three further stretches of host operations, which
  read the region's result and the table again. The program is run as the list of these five segments: between two
  segments a core holds every unscoped buffer at the valuation reached so far, beside what it owes (nothing) and the
  generator register. At the region's entry the unscoped buffers are sorted into the windows' arrays, the table and the
  rest; the table enters the region's invariant whole and comes back whole; at the exit the three parts are put together
  again, the arrays at what the pipeline computes. At the end every unscoped buffer is read against the final memory.
-/
import proofs.«417268_j40742059770679_1_alg».proof.Proof.KI.Final
import Idealize.ShloMosaic.Lib.Pipeline.Regions
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No body takes a variant. -/
abbrev run𝒱 : Variants := Variants.none
/-- No core owes another anything: no level is assigned. -/
abbrev runL : GSem nD τ sig → Finset Unit := fun _ => ∅
abbrev runLv : GSem nD τ sig → Unit → ℕ := fun _ _ => 0
/-- The one pipeline's table contents: the sample lengths the first stretch leaves. -/
abbrev runAdm : (p : Fin 1) → (pcfgs (F := F) p).Adm := fun _ => adm m

/-- What rides beside the buffers from segment to segment: what the core owes (nothing) and the generator register. -/
abbrev runR (c : Dev nD) : sProp 𝕄 :=
  iprop((∃ W, owes (c : Thread nD τ) (0 : CellTallies nD τ sig Unit) W) ∗ ∃ r, prngReg c r)

/-! ## The buffers around the region -/

set_option backward.isDefEq.respectTransparency.types false in
/-- Every unscoped buffer at the region's exit valuation is the windows' arrays at what the pipeline computes, the table
    at its contents, and every other buffer as the region found it. -/
theorem held_W1 (c : Dev nD) :
    (StableHlo.held (c : Thread nD τ) (Pipeline.ucRefs τ sig) (W1 m c) : sProp 𝕄)
      = iprop((dats m 0 c).arrays ((dats m 0 c).arrAt · (cfgM m).N)
          ∗ Pipeline.prefHeld pre0 c (fun _ => fullShare) (tbl m)
          ∗ Pipeline.unscopedRestP pre0 spec0 c (V m c)) := by
  have h1 := Pipeline.unscopedBufs_held (Ix := Unit) (Name := ℕ) (U := UR sig nD τ) (Lvl := ℕ) c (W1 m c)
  have h2 := Pipeline.unscopedBufs_split (Ix := Unit) (Name := ℕ) (U := UR sig nD τ) (Lvl := ℕ) (Val := Elt F)
    (Pipeline.pin (pcfgs (F := F)) (runAdm m)) 0 winFacts0.arr_unscoped winFacts0.arr_inj c (fun b => W1 m c b)
  have h3 := Pipeline.unscopedRest_split (Ix := Unit) (Name := ℕ) (U := UR sig nD τ) (Lvl := ℕ) preFacts0 c (fun b => W1 m c b)
  have h4 := Pipeline.arrays_eq (Pipeline.pin (pcfgs (F := F)) (runAdm m)) (dats m) 0 c arr_whole0 ((dats m 0 c).share_full fun _ => rfl)
    ((dats m 0 c).arrAt · (cfgM m).N)
  rw [h4]
  refine h1.symm.trans (h2.trans ?_)
  refine congrArg₂ (fun P Q : sProp 𝕄 => iprop(P ∗ Q)) (bigSep_congr fun w _ => ?_)
    (h3.trans (congrArg₂ (fun P Q : sProp 𝕄 => iprop(P ∗ Q)) ?_ ?_))
  · -- a window's array: the exit valuation is the pipeline's final contents there
    refine congrArg (fun f => ((c : Thread nD τ).loc (Pipeline.arrRef spec0 w) ↦{fullShare} f : sProp 𝕄)) ?_
    exact Pipeline.withArrays_arr spec0 winFacts0.arr_inj c _ _ w
  · -- the table is no window's array: it is as the region found it
    refine congrArg (Pipeline.prefHeld pre0 c (fun _ => fullShare)) (funext fun k => ?_)
    refine (Pipeline.withArrays_of_ne spec0 c _ _ (pre0.ref k) fun w e => preFacts0.disj k w e.symm).trans ?_
    exact V_pre m c k
  · -- nor is any buffer of the rest
    unfold Pipeline.unscopedRestP
    refine bigSep_congr fun b hb => ?_
    refine congrArg (fun f => ((c : Thread nD τ).loc b ↦{fullShare} f : sProp 𝕄)) ?_
    exact Pipeline.withArrays_of_ne spec0 c _ _ b fun w e =>
      (Finset.mem_sdiff.mp (Finset.mem_sdiff.mp hb).1).2 (Finset.mem_image.mpr ⟨w, Finset.mem_univ _, e⟩)

/-! ## The segments -/

/-- THE FIRST STRETCH: the five operations that make the table, over the unscoped buffers at the launch contents. -/
def runSeg0 : Pipeline.HostSeg (Name := ℕ) (U := UR sig nD τ) (pcfgs (F := F)) defs₀ run𝒱 runL runLv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) runR

/-- THE STRETCH AFTER THE REGION: twelve operations, from the region's exit valuation; they read the region's result and
    the table. -/
def runSeg1 : Pipeline.HostSeg (Name := ℕ) (U := UR sig nD τ) (pcfgs (F := F)) defs₀ run𝒱 runL runLv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m) runR

/-- THE SELECTION's two operations, -/
def runSeg2 : Pipeline.HostSeg (Name := ℕ) (U := UR sig nD τ) (pcfgs (F := F)) defs₀ run𝒱 runL runLv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h)
    (fun c => StableHlo.after (hostOps1 (F := F)) (W1 m c)) runR

/-- and THE LAST STRETCH: the sum and the mean. -/
def runSeg3 : Pipeline.HostSeg (Name := ℕ) (U := UR sig nD τ) (pcfgs (F := F)) defs₀ run𝒱 runL runLv :=
  Pipeline.HostSeg.ofOps _ _ _ _ _ (Pipeline.ucRefs τ sig) hostOps1_2
    (fun op h => Pipeline.sub_ucRefs op ((List.forall_iff_forall_mem.mp hostOps1_2_sub) op h))
    (by intro _ h; (repeat (cases h with | head => rfl | tail _ h => ?_)); exact nomatch h)
    (fun c => StableHlo.after (hostOps1_1 (F := F)) (StableHlo.after (hostOps1 (F := F)) (W1 m c))) runR

set_option backward.isDefEq.respectTransparency.types false in
/-- THE REGION: the windows' decided layout, no semaphore of the kernel's own, the body obligation. Entered from what the
    first stretch left: the windows' arrays go to the pipeline, the table whole and the generator register into the
    invariant, every other buffer past the region. Left with the arrays at their final contents, the table and the
    register given back, the buffers put together again at the exit valuation. -/
def runReg0 : Pipeline.RegionSeg (pcfgs (F := F)) (runAdm m) (dats m) () defs₀ run𝒱 runL runLv 0 where
  win := winFacts0.to₀
  block_pos := block_pos0
  stage_whole := stage_whole0
  K := PEmpty
  osem := fun k => k.elim
  ho := Pipeline.OwnSemFacts.none _
  hbody c := (body_obligation m c).loose
  hwaits := Pipeline.hwaits_of_owed_zero _ _ _ _ runL runLv 0 fun _ _ => rfl
  pre c := iprop(StableHlo.held (c : Thread nD τ) (Pipeline.ucRefs τ sig) (StableHlo.after (hostOps0 (F := F)) (V₀ m c)) ∗ runR c)
  post c := iprop(StableHlo.held (c : Thread nD τ) (Pipeline.ucRefs τ sig) (W1 m c) ∗ runR c)
  X c := iprop(∃ r, prngReg c r)
  Y c := iprop((∃ r, prngReg c r) ∗ Pipeline.prefHeld pre0 c (fun _ => fullShare) (tbl m))
  Z c := Pipeline.unscopedRestP pre0 spec0 c (V m c)
  hentry c := by
    -- the unscoped buffers as the first stretch left them: the arrays, the table, the rest
    have hsplit : (StableHlo.held (c : Thread nD τ) (Pipeline.ucRefs τ sig) (StableHlo.after (hostOps0 (F := F)) (V₀ m c)) : sProp 𝕄)
        ⊢ iprop((dats m 0 c).arrays ((dats m 0 c).arrAt · 0) ∗ Pipeline.prefHeld pre0 c (fun _ => fullShare) (tbl m)
            ∗ Pipeline.unscopedRestP pre0 spec0 c (V m c)) := by
      rw [← Pipeline.unscopedBufs_held (Ix := Unit) (Name := ℕ) (U := UR sig nD τ) (Lvl := ℕ) c (StableHlo.after (hostOps0 (F := F)) (V₀ m c))]
      refine (Pipeline.arrays_of_unscopedBufs (pcfgs (F := F)) (runAdm m) (dats m) winFacts0 arr_whole0 c
        ((dats m 0 c).share_full fun _ => rfl) (V m c) fun _ => rfl).trans (sep_mono .rfl (Entails.of_eq ?_))
      refine (Pipeline.unscopedRest_split (Ix := Unit) (Name := ℕ) (U := UR sig nD τ) (Lvl := ℕ) preFacts0 c (V m c)).trans ?_
      rw [show (fun k => V m c (pre0.ref k)) = tbl m from funext (V_pre m c)]
    iintro ⟨⟨Hub, HO, Hp⟩, -, -⟩
    ihave H := hsplit $$ Hub
    icases H with ⟨Ha, Ht, Hz⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (dats m 0 c).Φ 0 = Φc m c from rfl]
    unfold Φc Pipeline.ΦA
    iintro ⟨Hp, Ht, Hr⟩
    isplitr [Ht]
    · isplitl [Hr]; · iexact Hr
      iexact Hp
    · iexact Ht
  hout c := by
    rw [Pipeline.ownSems0_none, show (dats m 0 c).Φ (Fin.last (Pipeline.pin (pcfgs (F := F)) (runAdm m) 0).N) = Φc m c from rfl]
    unfold Φc Pipeline.ΦA
    iintro ⟨⟨Hr, Hp⟩, Ht⟩
    isplitl [Hp Ht]
    · isplitl [Hp]; · iexact Hp
      iexact Ht
    isplitr; · iempintro
    iexact Hr
  hexit c := by
    rw [held_W1 m c]
    iintro ⟨Ha, HO, ⟨Hp, Ht⟩, Hz⟩
    imodintro
    isplitl [Ha Ht Hz]
    · isplitl [Ha]; · iexact Ha
      isplitl [Ht]; · iexact Ht
      iexact Hz
    isplitl [HO]
    · unfold Pipeline.Dat.owesAt Pipeline.owesWithin
      icases HO with ⟨%W, -, HO⟩; iexists W; iexact HO
    iexact Hp

/-- @main as the list of the five. -/
abbrev runSegs : List (Pipeline.Seg (pcfgs (F := F)) (runAdm m) (dats m) () defs₀ run𝒱 runL runLv) :=
  [.host (runSeg0 m), .region (runReg0 m), .host (runSeg1 m), .host (runSeg2 m), .host (runSeg3 m)]

/-- The last thread state: every unscoped buffer at the final valuation, and the generator register. -/
abbrev runTₙ (c : Dev nD) : sProp 𝕄 :=
  iprop(StableHlo.held (c : Thread nD τ) (Pipeline.ucRefs τ sig) (Wfin m c) ∗ ∃ r, prngReg c r)

set_option backward.isDefEq.respectTransparency.types false in
/-- At the compiled mesh, for any float values, from any memory with zero counters: every weakly fair execution of
    @main on the TensorCores terminates, and in every final state each unscoped buffer of each core holds the final
    valuation's contents. -/
theorem run_main : θ_run defs (onTc (τ := τ) (main (F := F))) ⟨m, fun _ => 0, ρ⟩
    (fun r => ∀ c : Dev nD, ∀ b : Ref sig .tc, (Proc.devRef .tc b : DevRef τ sig) ∈ Pipeline.ucRefs τ sig →
      r.2.mem ((c.tc : Thread nD τ).loc b) = Wfin m c (Proc.devRef .tc b)) :=
  Pipeline.θ_run_regions_kit (pcfgs (F := F)) (runAdm m) (dats m) () (cellOf_inj (runAdm m)) emb₁ defs₀ run𝒱 runL runLv m ρ main (runSegs m)
    (fun c Q => by
      rw [main_chain c, show (Pipeline.chain
        [ StableHlo.seq hostOps0,
          Prog.lift (.customCall (Pipeline.entry 0) ()),
          StableHlo.seq hostOps1,
          StableHlo.seq hostOps1_1,
          StableHlo.seq hostOps1_2 ] : Prog (TpuEff nD τ sig (Elt F) (Pipeline.Sig Λ₀ (Fin 1) fun p => (pcfgs (F := F) p).Adm) .tc) PUnit)
          = Pipeline.Seg.run (runSegs m) from (Pipeline.Seg.run_eq_chain (runSegs m)).symm])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (runAdm m)) (cellOf_inj (runAdm m)))
      (Pipeline.launchToks (Pipeline.pin (pcfgs (F := F)) (runAdm m)) (cellOf_inj (runAdm m))))
    (hu₀ := by
      iintro Hu; imodintro
      isplitl [Hu]
      · iapply (show (ownU _ : sProp 𝕄) ⊢ BI.own (emb₁ (initOf (Pipeline.cells (Pipeline.pin (pcfgs (F := F)) (runAdm m)) (cellOf_inj (runAdm m)))
          (Pipeline.launchToks (Pipeline.pin (pcfgs (F := F)) (runAdm m)) (cellOf_inj (runAdm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ runR c)) (Tₙ := runTₙ m)
    (hch := ⟨fun _ => .rfl, fun _ => .rfl, fun _ => .rfl, fun _ => .rfl, fun _ => .rfl, fun c => by
      show iprop(StableHlo.held (c : Thread nD τ) (Pipeline.ucRefs τ sig) (Wfin m c) ∗ runR c) ⊢ _
      iintro ⟨Hh, HO, Hp⟩
      isplitr [HO]
      · isplitl [Hh]; · iexact Hh
        iexact Hp
      · iexact HO⟩)
    (hinit := by
      refine Pipeline.initEach runL runLv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem ((c : Thread nD τ).1, b) = Wfin m c b)
    (hfin := fun c s' => by
      unfold runTₙ StableHlo.held
      iintro ⟨⟨Hh, -⟩, HSI⟩
      imodintro
      iapply (pointsTo_read_all (Pipeline.ucRefs τ sig) (fun b => ((c : Thread nD τ).1, b)) (Wfin m c) s')
      isplitl [Hh] <;> iassumption)
    (hQ := fun s h c b hb => h c _ hb)

/-- info: 'Cert.KernelIdeal.Hand.run_main' depends on axioms: [propext, Classical.choice, Quot.sound] -/
#guard_msgs in #print axioms run_main

end Cert.KernelIdeal.Hand

end
-- ==== Proof.KI.Args.lean ====
/-
  The argument arrays and the table, read back. No host operation writes an argument array, and the pipeline leaves
  its input arrays as it found them: the three arguments reach the region, and the end of the program, as launched
  (for any float values). The table the region finds is the first stretch's term: the row sums of the mask, less two.
-/
import proofs.«417268_j40742059770679_1_alg».proof.Proof.KI.Final

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

section
variable {F : FTy → Type} [FloatOps F] (m : (ℓ : Loc nD τ sig) → Buf (Elt F) ℓ)

/-- A reference that is none of the first stretch's five results is written by none of its operations. -/
private theorem not_written0 (b : Ref sig .tc)
    (hb : b ≠ main_c ∧ b ≠ main_v0 ∧ b ≠ main_c_0 ∧ b ≠ main_v1 ∧ b ≠ main_v2) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne ‹_›

theorem V_arg0 (c : Dev nD) : V m c main_arg0 = m (c, main_arg0) :=
  StableHlo.after_of_forall_not_mem (b := Proc.devRef .tc main_arg0) hostOps0 (V₀ m c) (not_written0 main_arg0 (by decide))
theorem V_arg1 (c : Dev nD) : V m c main_arg1 = m (c, main_arg1) :=
  StableHlo.after_of_forall_not_mem (b := Proc.devRef .tc main_arg1) hostOps0 (V₀ m c) (not_written0 main_arg1 (by decide))
theorem V_arg2 (c : Dev nD) : V m c main_arg2 = m (c, main_arg2) :=
  StableHlo.after_of_forall_not_mem (b := Proc.devRef .tc main_arg2) hostOps0 (V₀ m c) (not_written0 main_arg2 (by decide))

/-- The table as the region finds it: the row sums of the mask, less two. -/
theorem V_v2 (c : Dev nD) : V m c main_v2
    = subi (Host.reduce IntOp.addi (m (c, main_arg1)) (constantI S_ 32 0#32) Facts₀.reducesTo_S32x1024_S32_d1 Facts₀.h_S_)
        (broadcastInDim S32 ![] Facts₀.bcast_S_S32 (constantI S_ 32 2#32)) := by
  show StableHlo.after (hostOps0 (F := F)) (fun b => m (c, b)) (Proc.devRef .tc main_v2) = _
  after_results

/-- A reference that is none of the twelve results of the stretch after the region is written by none of its operations. -/
private theorem not_written1 (b : Ref sig .tc)
    (hb : b ≠ main_v4 ∧ b ≠ main_v5 ∧ b ≠ main_v6 ∧ b ≠ main_v7 ∧ b ≠ main_cst ∧ b ≠ main_v8 ∧ b ≠ main_v9 ∧ b ≠ main_c_1
      ∧ b ≠ main_v10 ∧ b ≠ main_v11 ∧ b ≠ main_v12 ∧ b ≠ main_cst_2) :
    ∀ op ∈ (hostOps1 (F := F)), Proc.devRef .tc b ∉ op.writes := by
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.unary_writes, StableHlo.binary_writes, StableHlo.nullary_writes, StableHlo.reshape_writes,
      Finset.mem_singleton] <;>
    exact StableHlo.devRef_ne_of_ne ‹_›

/-- Nor by the called function's two operations, when it is neither of their results. -/
private theorem not_written1_1 (b : Ref sig .tc) (hb : b ≠ main_call0_v0 ∧ b ≠ main_v13) :
    ∀ op ∈ (hostOps1_1 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.ternary_writes, Finset.mem_singleton] <;>
    exact StableHlo.devRef_ne_of_ne ‹_›

/-- Nor by the last stretch's four operations, when it is none of their results. -/
private theorem not_written1_2 (b : Ref sig .tc) (hb : b ≠ main_cst_3 ∧ b ≠ main_v14 ∧ b ≠ main_cst_4 ∧ b ≠ main_v15) :
    ∀ op ∈ (hostOps1_2 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- A buffer none of the three later stretches writes ends as the region left it. -/
private theorem Wfin_of_not_written (c : Dev nD) (b : Ref sig .tc)
    (h1 : b ≠ main_v4 ∧ b ≠ main_v5 ∧ b ≠ main_v6 ∧ b ≠ main_v7 ∧ b ≠ main_cst ∧ b ≠ main_v8 ∧ b ≠ main_v9 ∧ b ≠ main_c_1
      ∧ b ≠ main_v10 ∧ b ≠ main_v11 ∧ b ≠ main_v12 ∧ b ≠ main_cst_2)
    (h2 : b ≠ main_call0_v0 ∧ b ≠ main_v13) (h3 : b ≠ main_cst_3 ∧ b ≠ main_v14 ∧ b ≠ main_cst_4 ∧ b ≠ main_v15) :
    Wfin m c (Proc.devRef .tc b) = W1 m c (Proc.devRef .tc b) := by
  unfold Wfin
  rw [StableHlo.after_of_forall_not_mem (b := Proc.devRef .tc b) hostOps1_2 _ (not_written1_2 b h3),
    StableHlo.after_of_forall_not_mem (b := Proc.devRef .tc b) hostOps1_1 _ (not_written1_1 b h2),
    StableHlo.after_of_forall_not_mem (b := Proc.devRef .tc b) hostOps1 _ (not_written1 b h1)]

/-- An input window's array leaves the region as it entered it. -/
private theorem W1_in (c : Dev nD) (w : Fin (cfgM m).W) (hin : ((cfgM m).win w).isOut = false) :
    W1 m c (Proc.devRef .tc (Pipeline.arrRef spec0 w)) = V m c (Pipeline.arrRef spec0 w) := by
  unfold W1
  rw [Pipeline.withArrays_arr spec0 winFacts0.arr_inj c _ _ w, Dat.arrAt_in (dats m 0 c) w hin, A_eq]

theorem Wfin_arg0 (c : Dev nD) : Wfin m c (Proc.devRef .tc main_arg0) = m (c, main_arg0) := by
  rw [Wfin_of_not_written m c main_arg0 (by decide) (by decide) (by decide)]
  exact (W1_in m c 0 rfl).trans (V_arg0 m c)

theorem Wfin_arg1 (c : Dev nD) : Wfin m c (Proc.devRef .tc main_arg1) = m (c, main_arg1) := by
  rw [Wfin_of_not_written m c main_arg1 (by decide) (by decide) (by decide)]
  unfold W1
  rw [Pipeline.withArrays_of_ne spec0 c _ _ main_arg1 (by decide)]
  exact V_arg1 m c

theorem Wfin_arg2 (c : Dev nD) : Wfin m c (Proc.devRef .tc main_arg2) = m (c, main_arg2) := by
  rw [Wfin_of_not_written m c main_arg2 (by decide) (by decide) (by decide)]
  exact (W1_in m c 1 rfl).trans (V_arg2 m c)
end

end Cert.KernelIdeal.Hand

end
-- ==== Proof.KVal.Piece.lean ====
/-
  What each case of the body leaves in the output block, as the body's arithmetic: the block a point leaves is the
  payload term of the table word, the two input blocks and the block found — the zero block at a point that opens a
  group, what the point before left at a later one.
-/
import proofs.«417268_j40742059770679_1_alg».proof.Proof.KI.Outs
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table word the body loads at grid coordinates `i`: entry 8 * i 0 + i 1 of the table's buffer. -/
abbrev word (c : Dev nD) (i : grid0.Coords) (xt : TbBuf (F := F) c) : Elt F .i32 :=
  View.readAt (Elt F) tbM.view (Rect.unit (s := S32) (k0_off1 i) S1.size (k0_off1_inb i)).toLoadRect xt (Shape.Idx.first (numel1_S1.symm ▸ Nat.one_pos))

/-- The zero offsets of a rank-2 and of a rank-3 whole-buffer access, as constant functions. -/
private theorem zeros2 : (![0, 0] : Fin 2 → Nat) = fun _ => 0 := by funext a; fin_cases a <;> rfl
private theorem zeros3 : (![0, 0, 0] : Fin 3 → Nat) = fun _ => 0 := by funext a; fin_cases a <;> rfl

/-- At a point that opens a group the block left is the payload over the zero block: the later store covers the whole
    block, its loads read the two input buffers whole and read back the zero block just stored. -/
theorem out_A_eq (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : cond0 i)
    (x0 x1 : Vec F S1x1024x1024 .f32) (xt : TbBuf (F := F) c) :
    out_A c i arg3 harg3 arg4 harg4 arg5 harg5 hc0 x0 x1 xt = k0_pay2 i (word c i xt) x0 x1 (k0_pay1 (F := F)) := by
  unfold out_A
  rw [View.read_writes_eq_canon _ _ _ (cover_A c i arg3 harg3 arg4 harg4 arg5 harg5 hc0 x0 x1 xt)]
  unfold kernelRun_A
  dsimp only
  sl_unfold_words
  rw [View.canon_cons_unit_zero (S := S8x128) zeros2]
  simp only [View.readAt_eq_ld, harg3.read_unread, harg4.read_unread, View.ld_unit_zero (S := S1x1024x1024) zeros3,
    View.readCov_unit_zero (S := S8x128) _ zeros2]
  rfl

/-- At a later point the block left is the payload over what the buffer held: one covering store, whose loads read the
    three buffers whole. -/
theorem out_B_eq (c : Dev nD) (i : grid0.Coords)
    (arg3 : Memref sig .tc .vmem S1x1024x1024 .f32) (harg3 : arg3.IsWhole) (arg4 : Memref sig .tc .vmem S1x1024x1024 .f32) (harg4 : arg4.IsWhole)
    (arg5 : Memref sig .tc .vmem S8x128 .f32) (harg5 : arg5.IsWhole) (hc0 : ¬cond0 i)
    (x0 x1 : Vec F S1x1024x1024 .f32) (xo : Vec F S8x128 .f32) (xt : TbBuf (F := F) c) :
    out_B c i arg3 harg3 arg4 harg4 arg5 harg5 hc0 x0 x1 xo xt = k0_pay2 i (word c i xt) x0 x1 xo := by
  unfold out_B
  rw [View.read_writes_eq_canon _ _ _ (cover_B c i arg3 harg3 arg4 harg4 arg5 harg5 hc0 x0 x1 xo xt)]
  unfold kernelRun_B
  dsimp only
  sl_unfold_words
  rw [View.canon_unit_zero (S := S8x128) zeros2]
  simp only [View.readAt_eq_ld, harg3.read_unread, harg4.read_unread, harg5.read_unread, View.ld_unit_zero (S := S1x1024x1024) zeros3,
    View.ld_unit_zero (S := S8x128) zeros2]
  rfl

end Cert.KernelIdeal.Hand

end
-- ==== Proof.Spec.lean ====
/-
  The mathematics both programs are compared through, over the extended reals.

  Per sample the kernel adds, over ALL 1024 x 1024 positions (i, j), the deviation |t[i,j] - x[i+1,j+1]^2| (the
  successor taken cyclically, which is what rotating the block by 1023 reads) times the two mask factors
  [i < n] and [j < n]; the reference adds the same deviation over the 1023 x 1023 positions where the successor
  does not wrap, times the product of the two factors, onto an initial zero. Both then apply one and the same
  host tail to the vector of per-sample sums: divide by a denominator, keep the samples with n > 0, add up,
  divide by 32.
-/
import Idealize.ShloMosaic.PureOps.Ideal
import Idealize.ShloMosaic.Lib.ValueIdx

noncomputable section

namespace Cert.Hand.Spec

open Idealize.ShloMosaic Idealize.ShloMosaic.ValueIdx

abbrev S_ : Shape := ⟨0, ![]⟩
abbrev S32 : Shape := ⟨1, ![32]⟩

/-- The cyclic successor of a row or column index. -/
def nxt (i : Fin 1024) : Fin 1024 := ⟨(i.val + 1) % 1024, Nat.mod_lt _ (by norm_num)⟩

/-- The mask factor at position `i` for the sample length `n`: one where `i < n` (signed), else zero. -/
def mk (n : BitVec 32) (i : ℕ) : EReal := if (BitVec.ofNat 32 i).slt n then 1 else 0

/-- The deviation of a target entry from the square of an input entry: |t - x * x|. -/
def dev (xv tv : EReal) : EReal := max (tv - xv * xv) (-(tv - xv * xv))

/-- The kernel's per-sample sum: every position of the 1024 x 1024 block, the input read one row and one
    column further on, cyclically. -/
def sumKf (X T : Fin 1024 → Fin 1024 → EReal) (n : BitVec 32) : EReal :=
  ∑ i : Fin 1024, ∑ j : Fin 1024, dev (X (nxt i) (nxt j)) (T i j) * mk n i.val * mk n j.val

/-- The reference's per-sample sum: the 1023 x 1023 positions whose successors do not wrap, onto zero. -/
def sumRf (X T : Fin 1024 → Fin 1024 → EReal) (n : BitVec 32) : EReal :=
  0 + ∑ i : Fin 1023, ∑ j : Fin 1023, dev (X i.succ j.succ) (T i.castSucc j.castSucc) * (mk n i.val * mk n j.val)

/-- The host tail both programs end with, as one function of the sample lengths, the per-sample sums and the
    denominators: the quotient where the length is positive and zero elsewhere, summed onto zero, over 32. -/
def tailF (hb : S_.BroadcastsInDim S32 (![] : Fin 0 → Fin S32.rank)) (hr : S32.ReducesTo [0] S_) (hS : 0 < S_.numel)
    (n : IVec S32 32) (ps den : FVec Ideal S32 .f32) : FVec Ideal S_ .f32 :=
  Host.divf
    (Host.reduceAdd
      (select (cmpi .sgt n (broadcastInDim S32 ![] hb (constantI S_ 32 0#32))) (Host.divf ps den)
        (broadcastInDim S32 ![] hb (constant (F := Ideal) S_ .f32 0x00000000#32)))
      (constant (F := Ideal) S_ .f32 0x00000000#32) hr hS)
    (constant (F := Ideal) S_ .f32 0x42000000#32)

end Cert.Hand.Spec

end
-- ==== Proof.KPay.lean ====
/-
  The kernel body's arithmetic, read at an index over the extended reals.

  The zero payload is 0 everywhere. The accumulating payload, at position (r, l) of the 8 x 128 tile, is what the tile
  held there plus the one-hot of the grid's row coordinate at r times one scalar: the sum over all 1024 x 1024 positions
  (a, b) of |t[a,b] - x[a+1,b+1]^2| * [a < n] * [b < n], the successors cyclic. Each operation of the body is read at an
  index by one small lemma: the two rotations by 1023 read the cyclic successor; the mask vector reads [a < n]; the two
  casts of the mask and their broadcasts read the row's and the column's mask; the sum over the last axis, the cast of
  the row sums to a column and the sum over it give the double sum; the extraction reads its one entry.
-/
import proofs.«417268_j40742059770679_1_alg».proof.Proof.Spec
import proofs.«417268_j40742059770679_1_alg».proof.Proof.Gen.KernelIdeal.Skeleton
import Idealize.ShloMosaic.Lib.ValueIdx
import Idealize.ShloMosaic.Lib.KernelVsHost
import Idealize.ShloMosaic.Lib.Pipeline.Value
import Idealize.ShloMosaic.PureOps.Ideal.Laws

noncomputable section

namespace Cert.Hand.KPay

open Idealize.ShloMosaic Idealize.ShloMosaic.ValueIdx Cert.KernelIdeal
open scoped BigOperators

/-- The zero payload reads the extended real 0 everywhere. -/
theorem pay1_apply (y : S8x128.Idx) : Gen.k0_pay1 (F := Ideal) y = 0 := by
  unfold Gen.k0_pay1
  exact Ideal.ofBits_zero_f32

/-- Rotating by 1023 along an axis of extent 1024 reads the cyclic successor on that axis: first axis 1, then axis 2. -/
theorem rot_apply {α : Type} (x : S1x1024x1024.Idx → α) (h1 : S1x1024x1024.Rotates 1 none) (h2 : S1x1024x1024.Rotates 2 none)
    (a b : Fin 1024) :
    dynamicRotate 2 1023#32 none (dynamicRotate 1 1023#32 none x h1) h2 (ix3 (0 : Fin 1) a b)
      = x (ix3 (0 : Fin 1) (Spec.nxt a) (Spec.nxt b)) := by
  refine (dynamicRotate_apply (2 : Fin 3) 1023#32 _ h2 (ix3 (0 : Fin 1) a b) (ix3 (0 : Fin 1) a (Spec.nxt b)) ?_).trans ?_
  · intro c
    match c with
    | ⟨0, _⟩ => rfl
    | ⟨1, _⟩ => rfl
    | ⟨2, _⟩ => rfl
  · refine dynamicRotate_apply (1 : Fin 3) 1023#32 _ h1 (ix3 (0 : Fin 1) a (Spec.nxt b)) (ix3 (0 : Fin 1) (Spec.nxt a) (Spec.nxt b)) ?_
    intro c
    match c with
    | ⟨0, _⟩ => rfl
    | ⟨1, _⟩ => rfl
    | ⟨2, _⟩ => rfl

/-- The mask vector at column a: one where a < n (signed), else zero. -/
theorem mask_apply (n : BitVec 32) (hi : S1x1024.Iotas .tc 32 [1]) (hw : 1 < 32) (a : Fin 1024) :
    (sitofp .f32 (extui 32 (cmpi .slt (iota .tc S1x1024 32 [1] hi) (broadcast S1x1024 n)) hw) : FVec Ideal S1x1024 .f32)
        (ix2 (0 : Fin 1) a)
      = Spec.mk n a.val := by
  show ((((IntOp.cmpi .slt (iota .tc S1x1024 32 [1] hi (ix2 (0 : Fin 1) a)) n).setWidth 32).toInt : ℝ) : EReal) = Spec.mk n a.val
  rw [iota_single_apply]
  show ((((IntOp.cmpi .slt (BitVec.ofNat 32 a.val) n).setWidth 32).toInt : ℝ) : EReal) = Spec.mk n a.val
  unfold Spec.mk IntOp.cmpi
  cases h : (BitVec.ofNat 32 a.val).slt n
  · simp
  · simp

section Layout
variable {α : Type}

/-- A row vector cast to a column block reads its entry a at (0, a, 0). -/
theorem cast_col_apply (v : S1x1024.Idx → α) (h : S1x1024.ShapeCasts S1x1024x1) (a : Fin 1024) :
    shapeCast S1x1024x1 v h (ix3 (0 : Fin 1) a (0 : Fin 1)) = v (ix2 (0 : Fin 1) a) := by
  refine shapeCast_apply v h _ _ ?_
  rw [Shape.rowMajor_val_two, Shape.rowMajor_val_three]
  show (0 : ℕ) * 1024 + a.val = ((0 : ℕ) * 1024 + a.val) * 1 + 0
  omega

/-- A row vector cast to a row block reads its entry b at (0, 0, b). -/
theorem cast_row_apply (v : S1x1024.Idx → α) (h : S1x1024.ShapeCasts S1x1x1024) (b : Fin 1024) :
    shapeCast S1x1x1024 v h (ix3 (0 : Fin 1) (0 : Fin 1) b) = v (ix2 (0 : Fin 1) b) := by
  refine shapeCast_apply v h _ _ ?_
  rw [Shape.rowMajor_val_two, Shape.rowMajor_val_three]
  show (0 : ℕ) * 1024 + b.val = ((0 : ℕ) * 1 + 0) * 1024 + b.val
  omega

/-- A column block broadcast along the last axis reads its row's entry. -/
theorem bcast_col_apply (v : S1x1024x1.Idx → α) (h : S1x1024x1.Broadcasts S1x1024x1024) (a b : Fin 1024) :
    broadcastTo S1x1024x1024 v h (ix3 (0 : Fin 1) a b) = v (ix3 (0 : Fin 1) a (0 : Fin 1)) := by
  refine broadcastTo_apply v h _ _ ?_
  intro c
  match c with
  | ⟨0, _⟩ => rfl
  | ⟨1, _⟩ => rfl
  | ⟨2, _⟩ => rfl

/-- A row block broadcast along the middle axis reads its column's entry. -/
theorem bcast_row_apply (v : S1x1x1024.Idx → α) (h : S1x1x1024.Broadcasts S1x1024x1024) (a b : Fin 1024) :
    broadcastTo S1x1024x1024 v h (ix3 (0 : Fin 1) a b) = v (ix3 (0 : Fin 1) (0 : Fin 1) b) := by
  refine broadcastTo_apply v h _ _ ?_
  intro c
  match c with
  | ⟨0, _⟩ => rfl
  | ⟨1, _⟩ => rfl
  | ⟨2, _⟩ => rfl

/-- Extracting position [0, 0] of a 1 x 1 vector reads its one entry. -/
theorem extract00_apply (v : S1x1.Idx → α) (h : ∀ a, (![0, 0] : Fin 2 → Nat) a < S1x1.size a) :
    extractAt ![0, 0] v h = v (ix2 (0 : Fin 1) (0 : Fin 1)) := by
  unfold extractAt
  refine congrArg v (funext fun c => ?_)
  match c with
  | ⟨0, _⟩ => rfl
  | ⟨1, _⟩ => rfl

end Layout

/-- The sum over the last axis of a 1 x 1024 x 1024 block, at row a: the sum over the columns. -/
theorem sum_lanes_apply (src : FVec Ideal S1x1024x1024 .f32) (h : S1x1024x1024.Reduces [2] S1x1024)
    (hφ : FKind.Formats .f32) (hacc : (0x00000000#32 : BitVec 32) = 0x00000000#32) (a : Fin 1024) :
    multiReduction (F := Ideal) .add [2] S1x1024 src 0x00000000#32 h hφ hacc (ix2 (0 : Fin 1) a)
      = ∑ b : Fin 1024, src (ix3 (0 : Fin 1) a b) := by
  refine (Ideal.multiReduction_add_single src 0x00000000#32 h hφ hacc (ix2 (0 : Fin 1) a)).trans ?_
  refine Finset.sum_congr rfl fun b _ => congrArg src (funext fun c => ?_)
  match c with
  | ⟨0, _⟩ => exact Fin.ext rfl
  | ⟨1, _⟩ => exact Fin.ext rfl
  | ⟨2, _⟩ => exact Fin.ext rfl

/-- The sum over the middle axis of a 1 x 1024 x 1 block: the sum over the rows. -/
theorem sum_rows_apply (src : FVec Ideal S1x1024x1 .f32) (h : S1x1024x1.Reduces [1] S1x1)
    (hφ : FKind.Formats .f32) (hacc : (0x00000000#32 : BitVec 32) = 0x00000000#32) :
    multiReduction (F := Ideal) .add [1] S1x1 src 0x00000000#32 h hφ hacc (ix2 (0 : Fin 1) (0 : Fin 1))
      = ∑ a : Fin 1024, src (ix3 (0 : Fin 1) a (0 : Fin 1)) := by
  refine (Ideal.multiReduction_add_single src 0x00000000#32 h hφ hacc (ix2 (0 : Fin 1) (0 : Fin 1))).trans ?_
  refine Finset.sum_congr rfl fun a _ => congrArg src (funext fun c => ?_)
  match c with
  | ⟨0, _⟩ => exact Fin.ext rfl
  | ⟨1, _⟩ => exact Fin.ext rfl
  | ⟨2, _⟩ => exact Fin.ext rfl

/-- The deviation |t - x'^2| with x' the input rotated along both axes, at (0, a, b). -/
theorem dev_apply (xb tb : FVec Ideal S1x1024x1024 .f32) (h1 : S1x1024x1024.Rotates 1 none) (h2 : S1x1024x1024.Rotates 2 none)
    (a b : Fin 1024) :
    absf (subf tb (mulf (dynamicRotate 2 1023#32 none (dynamicRotate 1 1023#32 none xb h1) h2)
        (dynamicRotate 2 1023#32 none (dynamicRotate 1 1023#32 none xb h1) h2))) (ix3 (0 : Fin 1) a b)
      = Spec.dev (xb (ix3 (0 : Fin 1) (Spec.nxt a) (Spec.nxt b))) (tb (ix3 (0 : Fin 1) a b)) := by
  show max (tb (ix3 (0 : Fin 1) a b)
        - dynamicRotate 2 1023#32 none (dynamicRotate 1 1023#32 none xb h1) h2 (ix3 (0 : Fin 1) a b)
          * dynamicRotate 2 1023#32 none (dynamicRotate 1 1023#32 none xb h1) h2 (ix3 (0 : Fin 1) a b))
      (-(tb (ix3 (0 : Fin 1) a b)
        - dynamicRotate 2 1023#32 none (dynamicRotate 1 1023#32 none xb h1) h2 (ix3 (0 : Fin 1) a b)
          * dynamicRotate 2 1023#32 none (dynamicRotate 1 1023#32 none xb h1) h2 (ix3 (0 : Fin 1) a b))) = _
  rw [rot_apply]
  rfl

/-- The one-hot of row (i 1) over the 8 x 128 tile, at (r, l): one where r is that row, else zero. Both row numbers
    are below 8, so their 32-bit words are equal exactly when the numbers are. -/
theorem onehot_apply (i : grid0.Coords) (hi : S8x128.Iotas .tc 32 [0]) (hw : 1 < 32) (r : Fin 8) (l : Fin 128) :
    (sitofp .f32 (extui 32 (cmpi .eq (iota .tc S8x128 32 [0] hi) (broadcast S8x128 (BitVec.ofNat 32 (i 1).val))) hw)
        : FVec Ideal S8x128 .f32) (ix2 r l)
      = if r.val = (i 1).val then (1 : EReal) else 0 := by
  show ((((IntOp.cmpi .eq (iota .tc S8x128 32 [0] hi (ix2 r l)) (BitVec.ofNat 32 (i 1).val)).setWidth 32).toInt : ℝ) : EReal) = _
  rw [iota_single_apply]
  show ((((IntOp.cmpi .eq (BitVec.ofNat 32 r.val) (BitVec.ofNat 32 (i 1).val)).setWidth 32).toInt : ℝ) : EReal) = _
  have hr : r.val < 8 := r.isLt
  have hi1 : (i 1).val < 8 := (i 1).isLt
  unfold IntOp.cmpi
  by_cases h : r.val = (i 1).val
  · rw [if_pos h, h]; simp
  · rw [if_neg h]
    have hne : ¬ (BitVec.ofNat 32 r.val = BitVec.ofNat 32 (i 1).val) := fun he => h (by
      have := congrArg BitVec.toNat he
      simp only [BitVec.toNat_ofNat] at this
      omega)
    have hb : (BitVec.ofNat 32 r.val == BitVec.ofNat 32 (i 1).val) = false := beq_eq_false_iff_ne.mpr hne
    rw [hb]; simp

/-- The accumulating payload at (r, l): what was there, plus the one-hot of the grid's row coordinate times the
    block's masked sum of deviations. -/
theorem pay2_apply (i : grid0.Coords) (n : BitVec 32) (xb tb : Vec Ideal S1x1024x1024 .f32) (prev : Vec Ideal S8x128 .f32)
    (r : Fin 8) (l : Fin 128) :
    Gen.k0_pay2 (F := Ideal) i n xb tb prev (ix2 r l)
      = prev (ix2 r l) + (if r.val = (i 1).val then (1 : EReal) else 0)
          * Spec.sumKf (fun a b => xb (ix3 (0 : Fin 1) a b)) (fun a b => tb (ix3 (0 : Fin 1) a b)) n := by
  unfold Gen.k0_pay2
  refine (addf_apply _ _ _).trans ?_
  refine congrArg₂ (· + ·) ?_ ?_
  · exact congrFun (shapeCast_self prev _) _
  · refine (mulf_apply _ _ _).trans ?_
    refine congrArg₂ (· * ·) (onehot_apply i _ _ r l) ?_
    refine (broadcast_apply _ _).trans ?_
    refine (extract00_apply _ _).trans ?_
    refine (sum_rows_apply _ _ _ _).trans ?_
    unfold Spec.sumKf
    refine Finset.sum_congr rfl fun a _ => ?_
    refine (cast_col_apply _ _ a).trans ?_
    refine (sum_lanes_apply _ _ _ _ a).trans ?_
    refine Finset.sum_congr rfl fun b _ => ?_
    refine (mulf_apply _ _ _).trans ?_
    refine congrArg₂ (· * ·) ?_ ?_
    · refine (mulf_apply _ _ _).trans ?_
      refine congrArg₂ (· * ·) (dev_apply xb tb _ _ a b) ?_
      refine (bcast_col_apply _ _ a b).trans ?_
      refine (cast_col_apply _ _ a).trans ?_
      exact mask_apply n _ _ a
    · refine (bcast_row_apply _ _ a b).trans ?_
      refine (cast_row_apply _ _ b).trans ?_
      exact mask_apply n _ _ b

end Cert.Hand.KPay

end
-- ==== Proof.KVal.Acc.lean ====
/-
  The accumulation over the extended reals: after point t = 8 g + l the output block's row r holds sample
  8 g + r's sum for r ≤ l and zero below — the group's rows filled one per point, from a zero block.
-/
import proofs.«417268_j40742059770679_1_alg».proof.Proof.KVal.Piece
import proofs.«417268_j40742059770679_1_alg».proof.Proof.KI.Data
import proofs.«417268_j40742059770679_1_alg».proof.Proof.KPay
import proofs.«417268_j40742059770679_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand

variable (m : (ℓ : Loc nD τ sig) → Buf (Elt Ideal) ℓ)

/-- Every point is below 32. -/
private theorem pt_lt (t : Fin (cfgM m).N) : t.val < 32 := lt_of_lt_of_eq t.isLt (show (cfgM m).N = 32 from N_0)

/-- The grid coordinates of point t = 8 g + l are (g, l). -/
private theorem coords_val : ∀ t : Fin grid0.N, (grid0.coords t 0).val = t.val / 8 ∧ (grid0.coords t 1).val = t.val % 8 := by
  decide +kernel

/-- The first input window's block index at point t: t on the sample axis, zero on the other two (8 g + l, computed in
    32-bit words, does not wrap on this grid). -/
private theorem index0_val : ∀ t : Fin grid0.N,
    cc0_transform_0 (grid0.coords t) 0 = t.val ∧ cc0_transform_0 (grid0.coords t) 1 = 0 ∧ cc0_transform_0 (grid0.coords t) 2 = 0 := by
  decide +kernel

/-- The same for the second input window. -/
private theorem index1_val : ∀ t : Fin grid0.N,
    cc0_transform_1 (grid0.coords t) 0 = t.val ∧ cc0_transform_1 (grid0.coords t) 1 = 0 ∧ cc0_transform_1 (grid0.coords t) 2 = 0 := by
  decide +kernel

/-- The table word's offset at point t is t. -/
private theorem off1_val : ∀ t : Fin grid0.N, k0_off1 (grid0.coords t) 0 = t.val := by
  decide +kernel

/-- The first input's block at point t is sample t of the input array: a block's coordinate in the array is the block
    index times the block's size plus the coordinate inside the block. -/
private theorem xblk_apply (c : Dev nD) (t : Fin (cfgM m).N) (a k : Fin 1024) :
    (iblk m c 0 t : Vec Ideal S1x1024x1024 .f32) (ix3 (0 : Fin 1) a k)
      = (V m c main_arg0 : S32x1024x1024.Idx → EReal) (ix3 (⟨t.val, pt_lt m t⟩ : Fin 32) a k) := by
  show (V m c main_arg0 : S32x1024x1024.Idx → EReal) ((((cfgM m).win 0).blk t).view.emb (ix3 (0 : Fin 1) a k)) = _
  refine congrArg (V m c main_arg0 : S32x1024x1024.Idx → EReal) (funext fun d => Fin.ext ?_)
  match d with
  | ⟨0, _⟩ =>
    show cc0_transform_0 (grid0.coords t) 0 * 1 + 1 * 0 = t.val
    rw [(index0_val t).1]; omega
  | ⟨1, _⟩ =>
    show cc0_transform_0 (grid0.coords t) 1 * 1024 + 1 * a.val = a.val
    rw [(index0_val t).2.1]; omega
  | ⟨2, _⟩ =>
    show cc0_transform_0 (grid0.coords t) 2 * 1024 + 1 * k.val = k.val
    rw [(index0_val t).2.2]; omega

/-- The second input's block at point t is sample t of the target array. -/
private theorem tblk_apply (c : Dev nD) (t : Fin (cfgM m).N) (a k : Fin 1024) :
    (iblk m c 1 t : Vec Ideal S1x1024x1024 .f32) (ix3 (0 : Fin 1) a k)
      = (V m c main_arg2 : S32x1024x1024.Idx → EReal) (ix3 (⟨t.val, pt_lt m t⟩ : Fin 32) a k) := by
  show (V m c main_arg2 : S32x1024x1024.Idx → EReal) ((((cfgM m).win 1).blk t).view.emb (ix3 (0 : Fin 1) a k)) = _
  refine congrArg (V m c main_arg2 : S32x1024x1024.Idx → EReal) (funext fun d => Fin.ext ?_)
  match d with
  | ⟨0, _⟩ =>
    show cc0_transform_1 (grid0.coords t) 0 * 1 + 1 * 0 = t.val
    rw [(index1_val t).1]; omega
  | ⟨1, _⟩ =>
    show cc0_transform_1 (grid0.coords t) 1 * 1024 + 1 * a.val = a.val
    rw [(index1_val t).2.1]; omega
  | ⟨2, _⟩ =>
    show cc0_transform_1 (grid0.coords t) 2 * 1024 + 1 * k.val = k.val
    rw [(index1_val t).2.2]; omega

/-- The table word loaded at point t is entry t of the table as the region finds it (there is one device). -/
private theorem word_apply (c : Dev nD) (t : Fin (cfgM m).N) :
    word c (grid0.coords t) (tblBuf m c) = (V m c main_v2 : S32.Idx → BitVec 32) (ix1 (⟨t.val, pt_lt m t⟩ : Fin 32)) := by
  obtain rfl : c = 0 := Subsingleton.elim _ _
  show (V m (0 : Dev nD) main_v2 : S32.Idx → BitVec 32) _ = _
  refine congrArg (V m (0 : Dev nD) main_v2 : S32.Idx → BitVec 32) (funext fun d => Fin.ext ?_)
  match d with
  | ⟨0, _⟩ =>
    show k0_off1 (grid0.coords t) 0 + 1 * 0 = t.val
    rw [off1_val t]; omega

/-- Sample `b`'s sum as the kernel computes it, over the arrays and the table as the region finds them. -/
def sampleSum (c : Dev nD) (b : Fin 32) : EReal :=
  Spec.sumKf (fun a k => V m c main_arg0 (ix3 b a k)) (fun a k => V m c main_arg2 (ix3 b a k)) (V m c main_v2 (ix1 b))

/-- The masked sum of deviations over point t's two blocks and table word is sample t's sum. -/
private theorem blockSum_eq (c : Dev nD) (t : Fin (cfgM m).N) :
    Spec.sumKf (fun a k => (iblk m c 0 t : Vec Ideal S1x1024x1024 .f32) (ix3 (0 : Fin 1) a k))
        (fun a k => (iblk m c 1 t : Vec Ideal S1x1024x1024 .f32) (ix3 (0 : Fin 1) a k))
        (word c (grid0.coords t) (tblBuf m c))
      = sampleSum m c ⟨t.val, pt_lt m t⟩ := by
  unfold sampleSum
  rw [word_apply m c t]
  exact congrArg₂ (fun X T => Spec.sumKf X T ((V m c main_v2 : S32.Idx → BitVec 32) (ix1 (⟨t.val, pt_lt m t⟩ : Fin 32))))
    (funext fun a => funext fun k => xblk_apply m c t a k) (funext fun a => funext fun k => tblk_apply m c t a k)

/-- What point t's payload leaves at entry (r, l) over a block `prev`: what was there, plus sample t's sum on the
    point's own row l = t mod 8 and nothing on the other rows. -/
private theorem pay_at (c : Dev nD) (t : Fin (cfgM m).N) (prev : Vec Ideal S8x128 .f32) (r : Fin 8) (l : Fin 128) :
    k0_pay2 (F := Ideal) (grid0.coords t) (word c (grid0.coords t) (tblBuf m c)) (iblk m c 0 t) (iblk m c 1 t) prev (ix2 r l)
      = prev (ix2 r l) + (if r.val = t.val % 8 then (1 : EReal) else 0) * sampleSum m c ⟨t.val, pt_lt m t⟩ := by
  refine (KPay.pay2_apply (grid0.coords t) (word c (grid0.coords t) (tblBuf m c)) (iblk m c 0 t) (iblk m c 1 t) prev r l).trans ?_
  rw [(coords_val t).2]
  exact congrArg (fun s => prev (ix2 r l) + (if r.val = t.val % 8 then (1 : EReal) else 0) * s) (blockSum_eq m c t)

/-- The accumulation at an entry, by induction on the point: a point that opens a group leaves its sample's sum on row 0
    over a zero block; a later point l adds its sample's sum on row l to what the point before left, whose rows below l
    are filled and whose rows from l on are zero. -/
private theorem outsAt_entry (c : Dev nD) (n : ℕ) : ∀ (hn : n < (cfgM m).N) (r : Fin 8) (l : Fin 128),
    outsAt m c n hn (ix2 r l)
      = if h : r.val ≤ n % 8 then sampleSum m c ⟨8 * (n / 8) + r.val, by have : (cfgM m).N = 32 := N_0; omega⟩ else 0 := by
  induction n using Nat.strong_induction_on with
  | _ n ih =>
    intro hn r l
    have hN : (cfgM m).N = 32 := N_0
    have hr : r.val < 8 := r.isLt
    by_cases h0 : n % 8 = 0
    · refine (congrFun (outsAt_A m c ⟨n, hn⟩ h0) (ix2 r l)).trans ?_
      refine (congrFun (out_A_eq (F := Ideal) c (grid0.coords ⟨n, hn⟩) (ms0_0 (adm m) ⟨n, hn⟩) (hs0_0 (adm m) ⟨n, hn⟩)
        (ms0_1 (adm m) ⟨n, hn⟩) (hs0_1 (adm m) ⟨n, hn⟩) (ms0_2 (adm m) ⟨n, hn⟩) (hs0_2 (adm m) ⟨n, hn⟩)
        ((hcond0 ⟨n, hn⟩).mpr h0) (iblk m c 0 ⟨n, hn⟩) (iblk m c 1 ⟨n, hn⟩) (tblBuf m c)) (ix2 r l)).trans ?_
      refine (pay_at m c ⟨n, hn⟩ (k0_pay1 (F := Ideal)) r l).trans ?_
      rw [KPay.pay1_apply]
      show 0 + (if r.val = n % 8 then (1 : EReal) else 0) * sampleSum m c ⟨n, _⟩ = _
      by_cases hr0 : r.val = n % 8
      · rw [if_pos hr0, dif_pos (by omega), one_mul, zero_add]
        exact congrArg (sampleSum m c) (Fin.ext (by show n = 8 * (n / 8) + r.val; omega))
      · rw [if_neg hr0, dif_neg (by omega), zero_mul, zero_add]
    · refine (congrFun (outsAt_B m c ⟨n, hn⟩ h0) (ix2 r l)).trans ?_
      refine (congrFun (out_B_eq (F := Ideal) c (grid0.coords ⟨n, hn⟩) (ms0_0 (adm m) ⟨n, hn⟩) (hs0_0 (adm m) ⟨n, hn⟩)
        (ms0_1 (adm m) ⟨n, hn⟩) (hs0_1 (adm m) ⟨n, hn⟩) (ms0_2 (adm m) ⟨n, hn⟩) (hs0_2 (adm m) ⟨n, hn⟩)
        (fun h => h0 ((hcond0 ⟨n, hn⟩).mp h)) (iblk m c 0 ⟨n, hn⟩) (iblk m c 1 ⟨n, hn⟩)
        (outsAt m c (n - 1) (Nat.lt_of_le_of_lt (Nat.sub_le n 1) hn)) (tblBuf m c)) (ix2 r l)).trans ?_
      refine (pay_at m c ⟨n, hn⟩ (outsAt m c (n - 1) (Nat.lt_of_le_of_lt (Nat.sub_le n 1) hn)) r l).trans ?_
      rw [ih (n - 1) (by omega) (Nat.lt_of_le_of_lt (Nat.sub_le n 1) hn) r l]
      show (if h : r.val ≤ (n - 1) % 8 then sampleSum m c ⟨8 * ((n - 1) / 8) + r.val, _⟩ else 0)
        + (if r.val = n % 8 then (1 : EReal) else 0) * sampleSum m c ⟨n, _⟩ = _
      by_cases hlt : r.val < n % 8
      · rw [dif_pos (by omega), if_neg (by omega), zero_mul, add_zero, dif_pos (by omega)]
        exact congrArg (sampleSum m c) (Fin.ext (by show 8 * ((n - 1) / 8) + r.val = 8 * (n / 8) + r.val; omega))
      · by_cases hr0 : r.val = n % 8
        · rw [dif_neg (by omega), if_pos hr0, one_mul, zero_add, dif_pos (by omega)]
          exact congrArg (sampleSum m c) (Fin.ext (by show n = 8 * (n / 8) + r.val; omega))
        · rw [dif_neg (by omega), if_neg hr0, zero_mul, add_zero, dif_neg (by omega)]

theorem outsAt_apply (c : Dev nD) (t : Fin (cfgM m).N) (r : Fin 8) (l : Fin 128) :
    outsAt m c t.val t.isLt (ix2 r l)
      = if h : r.val ≤ t.val % 8 then sampleSum m c ⟨8 * (t.val / 8) + r.val, by have := t.isLt; have : (cfgM m).N = 32 := N_0; omega⟩ else 0 := by
  exact outsAt_entry m c t.val t.isLt r l

end Cert.KernelIdeal.Hand

end
-- ==== Proof.KVal.FinalArr.lean ====
/-
  The windows' arrays after the run: the two input arrays as the region found them; the output array's row b holds
  sample b's sum in every lane (each group's block is written back once, after its eighth point).
-/
import proofs.«417268_j40742059770679_1_alg».proof.Proof.KVal.Acc
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand

variable (m : (ℓ : Loc nD τ sig) → Buf (Elt Ideal) ℓ)

/-- The output window's block index at every point of the grid: the group's number on the rows, zero on the lanes. -/
private theorem outIndex (a : (pcfg0 (F := Ideal)).Adm) : ∀ t : Fin (cfg0 a).N,
    ((cfg0 a).win 2).index t (0 : Fin 2) = t.val / 8 ∧ ((cfg0 a).win 2).index t (1 : Fin 2) = 0 :=
  (by decide +kernel : ∀ t : Fin grid0.N, cc0_transform_2 (grid0.coords t) (0 : Fin 2) = t.val / 8 ∧ cc0_transform_2 (grid0.coords t) (1 : Fin 2) = 0)

/-- The whole output array the run ends with: row b holds sample b's sum in every lane. -/
private def outArr (c : Dev nD) : Buf (Elt Ideal) (((cfgM m).win 2).arr.view.loc (c.tc : Thread nD τ)) :=
  fun (j : S32x128.Idx) => sampleSum m c (j 0)

private theorem outArr_apply (c : Dev nD) (b : Fin 32) (l : Fin 128) : outArr m c (ix2 b l) = sampleSum m c b := rfl

/-- Element (r, l) of the output's block at point t sits in the array at row 8 * (t / 8) + r, lane l. -/
private theorem outBlk_emb (t : Fin (cfgM m).N) (r : Fin 8) (l : Fin 128) (h : 8 * (t.val / 8) + r.val < 32) :
    (((cfgM m).win 2).blk t).view.emb (ix2 r l) = (ix2 (⟨8 * (t.val / 8) + r.val, h⟩ : Fin 32) l : S32x128.Idx) := by
  obtain ⟨e0, e1⟩ := outIndex (adm m) t
  funext a; apply Fin.ext
  match a with
  | ⟨0, _⟩ => show ((cfgM m).win 2).index t (0 : Fin 2) * 8 + 1 * r.val = 8 * (t.val / 8) + r.val; rw [e0]; omega
  | ⟨1, _⟩ => show ((cfgM m).win 2).index t (1 : Fin 2) * 128 + 1 * l.val = l.val; rw [e1]; omega

/-- What a point that writes back writes is its block of that array: it is the eighth point of its group, so all
    eight rows of the block hold their samples' sums. -/
private theorem outFlushed_eq (c : Dev nD) (t : Fin (cfgM m).N) (hf : ((cfgM m).win 2).flush t = true) :
    (dats m 0 c).flushed 2 t = (((cfgM m).win 2).blk t).view.read (Elt Ideal) (outArr m c) := by
  have h7 : t.val % 8 = 7 := (flush0_2 (adm m) t).mp hf
  have hN : t.val < 32 := lt_of_lt_of_eq t.isLt (show (cfgM m).N = 32 from N_0)
  show ((cfgM m).win 2).cut ((cfgM m).grid.coords t) ((dats m 0 c).after 2 t) = _
  rw [after0_2]
  refine funext fun (y : S8x128.Idx) => ?_
  obtain ⟨r, l, rfl⟩ : ∃ (r : Fin 8) (l : Fin 128), y = ix2 r l := ⟨y 0, y 1, eq_ix2 y⟩
  have hr : r.val ≤ t.val % 8 := by have := r.isLt; omega
  have hb : 8 * (t.val / 8) + r.val < 32 := by have := r.isLt; omega
  show outsAt m c t.val t.isLt (ix2 r l) = outArr m c ((((cfgM m).win 2).blk t).view.emb (ix2 r l))
  exact (outsAt_apply m c t r l).trans ((dif_pos hr).trans (congrArg (outArr m c) (outBlk_emb m t r l hb)).symm)

/-- An index of the array is in point t's block iff each coordinate is in the block's range on its axis. -/
private theorem outBlk_mem (t : Fin (cfgM m).N) (i : S32x128.Idx) :
    i ∈ (((cfgM m).win 2).blk t).view.set ↔ ∀ a : Fin 2, ((cfgM m).win 2).index t a * S8x128.size a ≤ (i a).val ∧ (i a).val < ((cfgM m).win 2).index t a * S8x128.size a + S8x128.size a := by
  have h : (((cfgM m).win 2).blk t).view.set = (((cfgM m).win 2).rect t).set := View.set_slice_whole main_v3 _
  exact (Eq.to_iff (congrArg (fun s => i ∈ s) h)).trans Rect.mem_set_unit

/-- Every index (b, l) of the array lies in the block written back at the last point of b's group, 8 * (b / 8) + 7. -/
private theorem outCover (i : S32x128.Idx) :
    ∃ t : Fin (cfgM m).N, ((cfgM m).win 2).flush t = true ∧ i ∈ (((cfgM m).win 2).blk t).view.set := by
  have hi0 : (i 0).val < 32 := idx2_lt0 i
  have hi1 : (i 1).val < 128 := idx2_lt1 i
  have hN : (cfgM m).N = 32 := N_0
  let t : Fin (cfgM m).N := ⟨8 * ((i 0).val / 8) + 7, by rw [hN]; omega⟩
  have ht : t.val = 8 * ((i 0).val / 8) + 7 := rfl
  obtain ⟨e0, e1⟩ := outIndex (adm m) t
  refine ⟨t, (flush0_2 (adm m) t).mpr (by rw [ht]; omega), ?_⟩
  rw [outBlk_mem]
  intro a
  match a with
  | ⟨0, _⟩ => show ((cfgM m).win 2).index t (0 : Fin 2) * 8 ≤ (i 0).val ∧ (i 0).val < ((cfgM m).win 2).index t (0 : Fin 2) * 8 + 8; rw [e0, ht]; omega
  | ⟨1, _⟩ => show ((cfgM m).win 2).index t (1 : Fin 2) * 128 ≤ (i 1).val ∧ (i 1).val < ((cfgM m).win 2).index t (1 : Fin 2) * 128 + 128; rw [e1]; omega

/-- The output array after the run is that array: the four groups' blocks tile it, each written once. -/
private theorem final_out (c : Dev nD) : (dats m 0 c).arrAt 2 (cfgM m).N = outArr m c :=
  (dats m 0 c).arrAt_eq_of_cover 2 (outArr m c) (outFlushed_eq m c) (outCover m)

theorem final_out_apply (c : Dev nD) (b : Fin 32) (l : Fin 128) :
    (dats m 0 c).arrAt 2 (cfgM m).N (ix2 b l) = sampleSum m c b :=
  (congrFun (final_out m c) (ix2 b l)).trans (outArr_apply m c b l)

end Cert.KernelIdeal.Hand

end
-- ==== Proof.KVal.Tail.lean ====
/-
  The program's result read back: the host tail applied to the sample lengths, column 0 of the output array and the
  denominators max(n * n, 1).
-/
import proofs.«417268_j40742059770679_1_alg».proof.Proof.KI.Args
import proofs.«417268_j40742059770679_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand

section
variable (m : (ℓ : Loc nD τ sig) → Buf (Elt Ideal) ℓ)

/-- The denominators the kernel's program computes: max(float(n) * float(n), 1.0). -/
def denK (c : Dev nD) : FVec Ideal S32 .f32 :=
  maximumf (mulf (sitofp (F := Ideal) .f32 (V m c main_v2)) (sitofp (F := Ideal) .f32 (V m c main_v2)))
    (broadcastInDim S32 ![] Facts₀.bcast_S_S32 (constant (F := Ideal) S_ .f32 0x3F800000#32))

/-- Column 0 of a [32,128] array, sliced out as [32,1] and reshaped to [32], reads entry (b, 0) at b. -/
private theorem col0_read {α : Type} (x : S32x128.Idx → α) (hs : S32x128.Slices ![0, 0] S32x1) (hc : S32x1.ShapeCasts S32)
    (b : S32.Idx) :
    shapeCast S32 (extractStridedSlice S32x1 ![0, 0] x hs) hc b = x (ix2 (b 0) (0 : Fin 128)) := by
  refine (shapeCast_apply _ hc b (ix2 (b 0) (0 : Fin 1)) ?_).trans ?_
  · rw [Shape.rowMajor_val_two, Shape.rowMajor_val_one]
    show (b 0).val * 1 + 0 = (b 0).val
    omega
  · refine extractStridedSlice_apply ![0, 0] x hs (ix2 (b 0) (0 : Fin 1)) (ix2 (b 0) (0 : Fin 128)) fun a => ?_
    match a with
    | ⟨0, _⟩ => show (b 0).val = 0 + (b 0).val; omega
    | ⟨1, _⟩ => rfl

/-- The output's array when the region is left: what the pipeline wrote back. -/
private theorem W1_v3 (c : Dev nD) : W1 m c (Proc.devRef .tc main_v3) = (dats m 0 c).arrAt 2 (cfgM m).N := by
  unfold W1
  exact Pipeline.withArrays_arr spec0 winFacts0.arr_inj c _ _ 2

/-- The table's buffer is no window's array: the region leaves it as it found it. -/
private theorem W1_v2 (c : Dev nD) : W1 m c (Proc.devRef .tc main_v2) = V m c main_v2 := by
  unfold W1
  exact Pipeline.withArrays_of_ne spec0 c _ _ main_v2 (by decide)

theorem Wfin_v15 (c : Dev nD) : Wfin m c (Proc.devRef .tc main_v15)
    = Spec.tailF Facts₀.bcast_S_S32 Facts₀.reducesTo_S32_S_d0 Facts₀.h_S_ (V m c main_v2)
        (fun b => (dats m 0 c).arrAt 2 (cfgM m).N (ix2 (b 0) (0 : Fin 128))) (denK m c) := by
  unfold Wfin
  show StableHlo.after (hostOps1_2 (F := Ideal)) _ (Proc.devRef .tc main_v15) = _
  after_results
  rw [W1_v2, W1_v3]
  unfold Spec.tailF denK
  generalize V m c main_v2 = n
  generalize (dats m 0 c).arrAt 2 (cfgM m).N = A
  rw [← funext (col0_read A Facts₀.slices_S32x128_S32x1_0_0 Facts₀.shapeCasts_S32x1_S32)]
  rfl
end

end Cert.KernelIdeal.Hand

end
-- ==== Proof.RefValue.lean ====
/-
  The reference program's result, as the shared specification.

  Per sample b the reference takes, on the 1023 x 1023 window of positions (i, j), the deviation
  |t[b, i, j] - x[b, i+1, j+1]^2| times a row factor and a column factor, each of them 1 where the position is
  below the sample length n_b (a signed comparison) and 0 elsewhere, and adds these up over both window axes onto
  an initial zero. That two-axis sum is read here at a sample: the operand indices that drop to sample b are
  exactly the (b, i, j), so the sum over them is the double sum over i and j; each factor is read back through its
  broadcasts to the comparison of the position with n_b, and the deviation through the two slices to the entries
  of x and t. What follows the sum (the division by the denominator, the selection on n_b > 0, the sum over the
  samples, the division by 32) is the specification's host tail on the same sample lengths and denominators, and
  is carried unopened.
-/
import proofs.«417268_j40742059770679_1_alg».proof.Proof.Spec
import proofs.«417268_j40742059770679_1_alg».proof.Proof.RefReadP
import Idealize.ShloMosaic.Lib.IdealHost

noncomputable section

namespace Cert.Hand.RefValue

open Cert.ReferenceIdeal Cert.ReferenceIdeal.Gen Idealize.ShloMosaic Idealize.ShloMosaic.ValueIdx
open scoped BigOperators

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the last two axes of a rank-3 index leaves its first coordinate. -/
theorem drop12_eq_iff (h : S32x1023x1023.ReducesTo [1, 2] S32) (a : Fin 32) (p q : Fin 1023) (b0 : Fin 32) :
    h.drop (ix3 a p q) = ix1 b0 ↔ a = b0 := by
  constructor
  · intro e
    have := congrArg (fun j : S32.Idx => (j 0).val) e
    exact Fin.ext this
  · rintro rfl
    funext d
    match d with
    | ⟨0, _⟩ => rfl

theorem sum_drop12 {M : Type*} [AddCommMonoid M] (h : S32x1023x1023.ReducesTo [1, 2] S32) (f : S32x1023x1023.Idx → M) (b0 : Fin 32) :
    ∑ i ∈ Finset.univ.filter (fun i => h.drop i = ix1 b0), f i = ∑ p : Fin 1023, ∑ q : Fin 1023, f (ix3 b0 p q) := by
  rw [Finset.sum_filter, sum_idx3]
  simp only [drop12_eq_iff]
  rw [Finset.sum_eq_single b0]
  · simp
  · intro a _ hne; simp [hne]
  · intro hb; exact absurd (Finset.mem_univ _) hb

/-- The mask factor: a signed comparison read as 0 or 1. -/
theorem maskf (a n : BitVec 32) :
    FloatOps.uitofp (F := Ideal) .f32 (IntOp.cmpi .slt a n) = if a.slt n then (1 : EReal) else 0 := by
  show (((BitVec.ofBool (a.slt n)).toNat : ℝ) : EReal) = _
  cases a.slt n <;> simp

/-- The sample lengths: the row sums of the mask, minus two. -/
def lens (mask : IVec S32x1024 32) : IVec S32 32 :=
  subi (Host.reduce IntOp.addi mask (constantI S_ 32 0#32) reducesTo_S32x1024_S32_d1 h_S_)
    (broadcastInDim S32 ![] bcast_S_S32 (constantI S_ 32 2#32))

/-- The denominators: the squared sample length, at least one, as a float. -/
def denR (mask : IVec S32x1024 32) : FVec Ideal S32 .f32 :=
  sitofp (F := Ideal) .f32
    (maxsi (muli (lens mask) (lens mask)) (broadcastInDim S32 ![] bcast_S_S32 (constantI S_ 32 1#32)))

theorem lens_eq (mask : IVec S32x1024 32) : ReadP.val_main_v2 (F := Ideal) mask = lens mask := rfl

/-- The 0/1 mask of sample b0 at position r: one where r is below the sample length. -/
theorem v12_at (mask : IVec S32x1024 32) (b0 : Fin 32) (r : Fin 1023) :
    ReadP.val_main_v12 (F := Ideal) mask (ix2 b0 r) = Spec.mk (lens mask (ix1 b0)) r.val := by
  have e8 : ReadP.idx_main_v8 (ReadP.idx_main_v10 (ix2 b0 r)) = ix1 b0 :=
    funext fun a => by match a with | ⟨0, _⟩ => rfl
  rw [ReadP.val_main_v12_apply, ReadP.val_main_v11_apply, ReadP.val_main_v9_apply, ReadP.val_main_v7_apply,
    ReadP.val_main_v6_apply, ReadP.val_main_v10_apply, ReadP.val_main_v8_apply, e8, lens_eq, maskf]
  rfl

/-- The deviation |t - x * x| at a position of the 1023 x 1023 window: x one row and one column further on. -/
theorem v19_at (x t : FVec Ideal S32x1024x1024 .f32) (b0 : Fin 32) (p q : Fin 1023) :
    ReadP.val_main_v19 (F := Ideal) x t (ix3 b0 p q)
      = Spec.dev (x (ix3 b0 p.succ q.succ)) (t (ix3 b0 p.castSucc q.castSucc)) := by
  have e3 : ReadP.idx_main_v3 (ix3 b0 p q) = ix3 b0 p.succ q.succ :=
    funext fun a => Fin.ext (by
      match a with
      | ⟨0, _⟩ => rfl
      | ⟨1, _⟩ => exact Nat.add_comm 1 p.val
      | ⟨2, _⟩ => exact Nat.add_comm 1 q.val)
  have e5 : ReadP.idx_main_v5 (ix3 b0 p q) = ix3 b0 p.castSucc q.castSucc :=
    funext fun a => Fin.ext (by
      match a with
      | ⟨0, _⟩ => rfl
      | ⟨1, _⟩ => rfl
      | ⟨2, _⟩ => rfl)
  rw [ReadP.val_main_v19_apply, ReadP.val_main_v18_apply, ReadP.val_main_v5_apply, ReadP.val_main_v4_apply,
    ReadP.val_main_v3_apply, e3, e5]
  rfl

/-- The product of the row factor and the column factor at a position. -/
theorem v17_at (mask : IVec S32x1024 32) (b0 : Fin 32) (p q : Fin 1023) :
    ReadP.val_main_v17 (F := Ideal) mask (ix3 b0 p q)
      = Spec.mk (lens mask (ix1 b0)) p.val * Spec.mk (lens mask (ix1 b0)) q.val := by
  have e15 : ReadP.idx_main_v13 (ReadP.idx_main_v15 (ix3 b0 p q)) = ix2 b0 p :=
    funext fun a => by match a with | ⟨0, _⟩ => rfl | ⟨1, _⟩ => rfl
  have e16 : ReadP.idx_main_v14 (ReadP.idx_main_v16 (ix3 b0 p q)) = ix2 b0 q :=
    funext fun a => by match a with | ⟨0, _⟩ => rfl | ⟨1, _⟩ => rfl
  rw [ReadP.val_main_v17_apply, ReadP.val_main_v15_apply, ReadP.val_main_v13_apply, ReadP.val_main_v16_apply,
    ReadP.val_main_v14_apply, e15, e16, v12_at, v12_at]
  rfl

/-- The summand of the per-sample sum at a position. -/
theorem v20_at (x t : FVec Ideal S32x1024x1024 .f32) (mask : IVec S32x1024 32) (b0 : Fin 32) (p q : Fin 1023) :
    ReadP.val_main_v20 (F := Ideal) x mask t (ix3 b0 p q)
      = Spec.dev (x (ix3 b0 p.succ q.succ)) (t (ix3 b0 p.castSucc q.castSucc))
          * (Spec.mk (lens mask (ix1 b0)) p.val * Spec.mk (lens mask (ix1 b0)) q.val) := by
  rw [ReadP.val_main_v20_apply, v19_at, v17_at]
  rfl

/-- The reference's sum over the two window axes, at sample b: the initial zero plus the double sum of the
    masked deviations. -/
theorem perSum_apply (x t : FVec Ideal S32x1024x1024 .f32) (mask : IVec S32x1024 32) (b : S32.Idx) :
    Host.reduceAdd (F := Ideal) (ReadP.val_main_v20 (F := Ideal) x mask t)
        (constant (F := Ideal) S_ .f32 0x00000000#32) reducesTo_S32x1023x1023_S32_d1_2 h_S_ b
      = Spec.sumRf (fun a c => x (ix3 (b 0) a c)) (fun a c => t (ix3 (b 0) a c)) (lens mask b) := by
  obtain ⟨b0, rfl⟩ : ∃ b0 : Fin 32, b = ix1 b0 := ⟨b 0, eq_ix1 b⟩
  rw [hostReduceAdd_apply]
  unfold Ideal.hostReduceAdd
  rw [sum_drop12]
  simp only [v20_at]
  unfold Spec.sumRf
  rw [constant_apply, Ideal.ofBits_zero_f32]

/-- The vector of per-sample sums is the specification's. -/
theorem perSum (x t : FVec Ideal S32x1024x1024 .f32) (mask : IVec S32x1024 32) :
    Host.reduceAdd (F := Ideal) (ReadP.val_main_v20 (F := Ideal) x mask t)
        (constant (F := Ideal) S_ .f32 0x00000000#32) reducesTo_S32x1023x1023_S32_d1_2 h_S_
      = fun b => Spec.sumRf (fun a c => x (ix3 (b 0) a c)) (fun a c => t (ix3 (b 0) a c)) (lens mask b) :=
  funext fun b => perSum_apply x t mask b

/-- The reference's last stage is the shared host tail applied to the sample lengths, the specification's
    per-sample sums and the denominators: the tail's operations are the reference's own, so only the vector of
    per-sample sums is rewritten. -/
theorem ref_result (x t : FVec Ideal S32x1024x1024 .f32) (mask : IVec S32x1024 32) :
    ReadP.val_main_v31 (F := Ideal) x mask t
      = Spec.tailF bcast_S_S32 reducesTo_S32_S_d0 h_S_ (lens mask)
          (fun b => Spec.sumRf (fun a c => x (ix3 (b 0) a c)) (fun a c => t (ix3 (b 0) a c)) (lens mask b))
          (denR mask) := by
  rw [← perSum x t mask]
  rfl

end Cert.Hand.RefValue

end
-- ==== Proof.PreDecode.lean ====
/-
  The precondition, read back. The printed predicate says three things at once: every entry of the input has an
  absolute value below +inf, every entry of the target likewise, and every sample length is the word 0 or the
  word 1. Each is an "all" over an array of one-bit words joined by "and"; where the whole is 1, each element is 1,
  and an extended real whose absolute value lies below +inf is a real.
-/
import proofs.«417268_j40742059770679_1_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.Hand.Pre

open Idealize.ShloMosaic

/-- The result shape of a reduction over all axes has one index. -/
instance : Subsingleton Cert.Pre_finite_inputs.S_.Idx := ⟨fun a b => funext fun d => d.elim0⟩

/-- The pattern 0x7F800000 denotes +inf. -/
theorem inf_eq_top : Ideal.ofBits .f32 0x7F800000#32 = (⊤ : EReal) := by
  simp [Ideal.ofBits, Ideal.ieee]

/-- An extended real whose absolute value max v (-v) compares below +inf is a real. -/
theorem real_of_abs_lt (v : EReal)
    (h : Ideal.cmp .olt (max v (-v)) (Ideal.ofBits .f32 0x7F800000#32) = 1#1) : ∃ r : ℝ, v = (r : EReal) := by
  rw [inf_eq_top] at h
  induction v using EReal.rec with
  | bot => simp [Ideal.cmp] at h
  | coe r => exact ⟨r, rfl⟩
  | top => simp [Ideal.cmp] at h

/-- A word that compares equal to 0 or equal to 1 is the word 0 or the word 1. -/
theorem word_of_or (w : BitVec 32)
    (h : IntOp.ori (IntOp.cmpi .eq w 0#32) (IntOp.cmpi .eq w 1#32) = 1#1) : w = 0#32 ∨ w = 1#32 := by
  rcases IntOp.ori_eq_one.1 h with h0 | h1
  · exact Or.inl (StableHlo.Predicate.cmpi_eq_iff.1 h0)
  · exact Or.inr (StableHlo.Predicate.cmpi_eq_iff.1 h1)

open Idealize.ShloMosaic in
theorem decode (x t : FVec Ideal Cert.Pre_finite_inputs.S32x1024x1024 .f32) (mask : IVec Cert.Pre_finite_inputs.S32x1024 32)
    (h : Cert.Pre_finite_inputs.fn (F := Ideal) x mask t = fun _ => 1#1) :
    (∀ i, ∃ r : ℝ, x i = (r : EReal)) ∧ (∀ i, ∃ r : ℝ, t i = (r : EReal)) ∧ (∀ i, mask i = 0#32 ∨ mask i = 1#32) := by
  have h0 := congrFun h ValueIdx.ix0
  dsimp only [Cert.Pre_finite_inputs.fn, andi] at h0
  obtain ⟨hxt, hm⟩ := IntOp.andi_eq_one.1 h0
  obtain ⟨hx, ht⟩ := IntOp.andi_eq_one.1 hxt
  refine ⟨fun i => ?_, fun i => ?_, fun i => ?_⟩
  · exact real_of_abs_lt (x i) (Host.reduce_andi_all _ _ _ _ _ hx i)
  · exact real_of_abs_lt (t i) (Host.reduce_andi_all _ _ _ _ _ ht i)
  · exact word_of_or (mask i) (Host.reduce_andi_all _ _ _ _ _ hm i)

end Cert.Hand.Pre

end
-- ==== Proof.LensFacts.lean ====
/-
  The sample lengths, as integers.

  The mask is a 32 x 1024 array of words each 0 or 1. A sample's length is its row sum less two. A row sum of 1024
  such words is a count k ≤ 1024 and does not wrap in 32 bits, so every length is the word of the integer k - 2,
  which lies between -2 and 1022. Three consequences are stated here: position 1023 is never below a length, so its
  mask factor is zero; a length squares without wrapping; and therefore the denominator max(n * n, 1), computed on
  the extended reals from the converted lengths, is the conversion of the same maximum computed on the integers.
-/
import Idealize.ShloMosaic.PureOps.Ideal
import Idealize.ShloMosaic.PureOps.Reduce
import Idealize.ShloMosaic.Lib.ValueIdx
import Idealize.ShloMosaic.Lib.StableHlo.Predicate
import proofs.«417268_j40742059770679_1_alg».proof.Proof.Spec

noncomputable section

namespace Cert.Hand.Lens

open Idealize.ShloMosaic Idealize.ShloMosaic.ValueIdx Cert.Hand.Spec

/-- The shape of the mask: 32 samples of 1024 positions. -/
abbrev SM : Shape := ⟨2, ![32, 1024]⟩

/-- The sample lengths: the row sums of the mask, less two. -/
def lens (hred : SM.ReducesTo [1] S32) (hS : 0 < S_.numel)
    (hb : S_.BroadcastsInDim S32 (![] : Fin 0 → Fin S32.rank)) (mask : IVec SM 32) : IVec S32 32 :=
  subi (Host.reduce IntOp.addi mask (constantI S_ 32 0#32) hred hS) (broadcastInDim S32 ![] hb (constantI S_ 32 2#32))

/-! ## Words -/

/-- For k up to 1024 the integer k - 2 lies within the signed 32-bit range, so the word of k - 2 reads back as k - 2. -/
theorem toInt_len (k : ℕ) (hk : k ≤ 1024) : (BitVec.ofInt 32 ((k : ℤ) - 2)).toInt = (k : ℤ) - 2 :=
  BitVec.toInt_ofInt_eq_self (by decide) (by norm_num; omega) (by norm_num; omega)

/-- Taking two from the word of k, for k up to 1024, gives the word of the integer k - 2. -/
theorem word_sub_two (k : ℕ) (hk : k ≤ 1024) : BitVec.ofNat 32 k - 2#32 = BitVec.ofInt 32 ((k : ℤ) - 2) := by
  apply BitVec.eq_of_toInt_eq
  rw [BitVec.toInt_sub, BitVec.toInt_ofInt, StableHlo.Predicate.toInt_ofNat_small k (by omega)]
  rfl

/-! ## The row sums -/

/-- A position that the reduction sends to row b lies in row b. -/
theorem drop_row (hred : SM.ReducesTo [1] S32) (i : SM.Idx) (b : S32.Idx) (h : hred.drop i = b) :
    (i 0).val = (b 0).val := by
  have hv : (hred.drop i 0 : Nat) = i 0 := Shape.ReducesTo.drop_apply_val hred i 0
  rw [h] at hv
  exact hv.symm

/-- The positions sent to one row are at most 1024: within a row a position is determined by its column. -/
theorem card_row (hred : SM.ReducesTo [1] S32) (b : S32.Idx) :
    (Finset.univ.filter fun i : SM.Idx => hred.drop i = b).card ≤ 1024 := by
  have h := Finset.card_le_card_of_injOn (s := Finset.univ.filter fun i : SM.Idx => hred.drop i = b)
    (t := Finset.range 1024) (fun i : SM.Idx => (i 1).val)
    (fun i _ => Finset.mem_range.2 (idx2_lt1 i))
    (by
      intro x hx y hy hxy
      have hx' := drop_row hred x b (Finset.mem_filter.1 (Finset.mem_coe.1 hx)).2
      have hy' := drop_row hred y b (Finset.mem_filter.1 (Finset.mem_coe.1 hy)).2
      funext a
      match a with
      | ⟨0, _⟩ => exact Fin.ext (hx'.trans hy'.symm)
      | ⟨1, _⟩ => exact Fin.ext hxy)
  rwa [Finset.card_range] at h

/-- Each sample length is k - 2 for the number k ≤ 1024 of ones in its row: the sum of 1024 words each 0 or 1
    does not wrap. -/
theorem lens_range (hred : SM.ReducesTo [1] S32) (hS : 0 < S_.numel)
    (hb : S_.BroadcastsInDim S32 (![] : Fin 0 → Fin S32.rank)) (mask : IVec SM 32)
    (hm : ∀ i, mask i = 0#32 ∨ mask i = 1#32) (b : S32.Idx) :
    ∃ k : ℕ, k ≤ 1024 ∧ lens hred hS hb mask b = BitVec.ofInt 32 ((k : ℤ) - 2) := by
  classical
  have hval : ∀ i, (mask i).toNat ≤ 1 := by
    intro i
    rcases hm i with h | h <;> rw [h] <;> decide
  have hk : ∑ i ∈ Finset.univ.filter (fun i : SM.Idx => hred.drop i = b), (mask i).toNat ≤ 1024 :=
    ((Finset.sum_le_sum (fun i _ => hval i)).trans (by rw [Finset.sum_const, smul_eq_mul, mul_one])).trans
      (card_row hred b)
  refine ⟨∑ i ∈ Finset.univ.filter (fun i : SM.Idx => hred.drop i = b), (mask i).toNat, hk, ?_⟩
  have hred_eq : Host.reduce IntOp.addi mask (constantI S_ 32 0#32) hred hS b
      = BitVec.ofNat 32 (∑ i ∈ Finset.univ.filter (fun i : SM.Idx => hred.drop i = b), (mask i).toNat) := by
    rw [Host.reduce_eq_fold]
    apply BitVec.eq_of_toNat_eq
    rw [BitVec.toNat_ofNat, Nat.mod_eq_of_lt (by omega)]
    exact StableHlo.Predicate.toNat_fold_addi _ mask (by omega)
  have hbc : broadcastInDim S32 ![] hb (constantI S_ 32 2#32) b = 2#32 :=
    StableHlo.Predicate.bcast_scalar hb hS (constantI S_ 32 2#32) b
  show IntOp.subi (Host.reduce IntOp.addi mask (constantI S_ 32 0#32) hred hS b)
      (broadcastInDim S32 ![] hb (constantI S_ 32 2#32) b) = _
  rw [hred_eq, hbc]
  exact word_sub_two _ hk

/-! ## The mask factors -/

/-- A mask factor is zero or one. -/
theorem mk_real (n : BitVec 32) (i : ℕ) : Spec.mk n i = 0 ∨ Spec.mk n i = 1 := by
  unfold Spec.mk
  split_ifs
  · exact Or.inr rfl
  · exact Or.inl rfl

/-- The last position carries the factor zero: a length k - 2 with k ≤ 1024 is at most 1022, so 1023 is not below it. -/
theorem mk_last (k : ℕ) (hk : k ≤ 1024) : Spec.mk (BitVec.ofInt 32 ((k : ℤ) - 2)) 1023 = 0 := by
  unfold Spec.mk
  rw [if_neg]
  rw [Bool.not_eq_true, ← Bool.not_eq_true, BitVec.slt_iff_toInt_lt, toInt_len k hk,
    StableHlo.Predicate.toInt_ofNat_small 1023 (by norm_num)]
  omega

/-- The same for any word that is such a length. -/
theorem mk_last_of (n : BitVec 32) (h : ∃ k : ℕ, k ≤ 1024 ∧ n = BitVec.ofInt 32 ((k : ℤ) - 2)) : Spec.mk n 1023 = 0 := by
  obtain ⟨k, hk, rfl⟩ := h
  exact mk_last k hk

/-! ## The denominator -/

/-- The square of a word whose signed value z lies between -2 and 1022 does not wrap, and its signed maximum with
    one is the integer maximum of z * z and 1. -/
theorem toInt_max_sq (x : BitVec 32) (z : ℤ) (hx : x.toInt = z) (hlo : -2 ≤ z) (hhi : z ≤ 1022) :
    (IntOp.maxsi (IntOp.muli x x) 1#32).toInt = max (z * z) 1 := by
  have h0 : 0 ≤ z * z := mul_self_nonneg z
  have h1 : z * z ≤ 1022 * 1022 := by nlinarith
  have hmul : (IntOp.muli x x).toInt = z * z := by
    show (x * x).toInt = z * z
    rw [BitVec.toInt_mul, hx]
    exact Int.bmod_eq_of_le (by norm_num; omega) (by norm_num; omega)
  have hone : (1#32 : BitVec 32).toInt = 1 := by decide
  unfold IntOp.maxsi
  split_ifs with hc
  · rw [BitVec.slt_iff_toInt_lt, hone, hmul] at hc
    rw [hmul, max_eq_left (by omega)]
  · rw [BitVec.slt_iff_toInt_lt, hone, hmul] at hc
    rw [hone, max_eq_right (by omega)]

/-- At the extended reals the denominator max(n², 1) may be taken on the integers before the conversion:
    a length between -2 and 1022 squares without wrapping, and the conversion is exact. -/
theorem den_eq (hb : S_.BroadcastsInDim S32 (![] : Fin 0 → Fin S32.rank)) (hS : 0 < S_.numel) (n : IVec S32 32)
    (hn : ∀ b, ∃ k : ℕ, k ≤ 1024 ∧ n b = BitVec.ofInt 32 ((k : ℤ) - 2)) :
    maximumf (mulf (sitofp (F := Ideal) .f32 n) (sitofp (F := Ideal) .f32 n))
        (broadcastInDim S32 ![] hb (constant (F := Ideal) S_ .f32 0x3F800000#32))
      = sitofp (F := Ideal) .f32 (maxsi (muli n n) (broadcastInDim S32 ![] hb (constantI S_ 32 1#32))) := by
  funext b
  obtain ⟨k, hk, hnb⟩ := hn b
  have hz : (n b).toInt = (k : ℤ) - 2 := by rw [hnb]; exact toInt_len k hk
  have hone : Ideal.ofBits .f32 0x3F800000#32 = ((1 : ℝ) : EReal) := by
    simp [Ideal.ofBits, Ideal.ieee, -EReal.coe_mul]
    norm_num
  have hbf : broadcastInDim S32 ![] hb (constant (F := Ideal) S_ .f32 0x3F800000#32) b = ((1 : ℝ) : EReal) :=
    (StableHlo.Predicate.bcast_scalar hb hS (constant (F := Ideal) S_ .f32 0x3F800000#32) b).trans hone
  have hbi : broadcastInDim S32 ![] hb (constantI S_ 32 1#32) b = 1#32 :=
    StableHlo.Predicate.bcast_scalar hb hS (constantI S_ 32 1#32) b
  have hR : (sitofp (F := Ideal) .f32 (maxsi (muli n n) (broadcastInDim S32 ![] hb (constantI S_ 32 1#32)))) b
      = (((IntOp.maxsi (IntOp.muli (n b) (n b)) (broadcastInDim S32 ![] hb (constantI S_ 32 1#32) b)).toInt : ℝ) : EReal) := rfl
  have hL : (sitofp (F := Ideal) .f32 n) b = (((n b).toInt : ℝ) : EReal) := rfl
  rw [maximumf_apply, mulf_apply, hL, hbf, hR, hbi, toInt_max_sq (n b) _ hz (by omega) (by omega), hz,
    ← EReal.coe_mul, ← EReal.coe_strictMono.monotone.map_max, Int.cast_max, Int.cast_mul, Int.cast_one]

end Cert.Hand.Lens

end
-- ==== Proof.SumLaw.lean ====
/-
  The law that joins the two per-sample sums. When the mask factor at the last position is zero, every term of the
  kernel's sum in the last row or the last column is zero (a product with a zero factor is zero in the extended reals,
  whatever the other factor), and on the remaining 1023 x 1023 positions the cyclic successor is the plain successor:
  what is left is the reference's sum, term by term, the three factors regrouped.
-/
import proofs.«417268_j40742059770679_1_alg».proof.Proof.Spec
import Mathlib.Algebra.BigOperators.Fin

noncomputable section

namespace Cert.Hand

open Cert.Hand.Spec

/-- Below the last position the cyclic successor is the successor. -/
theorem nxt_castSucc (i : Fin 1023) : nxt i.castSucc = i.succ := by
  apply Fin.ext
  have h := i.isLt
  simp only [nxt, Fin.coe_castSucc, Fin.val_succ]
  exact Nat.mod_eq_of_lt (by omega)

/-- The kernel's sum over all 1024 x 1024 positions is the reference's sum over 1023 x 1023, given that the mask
    factor at position 1023 is zero. -/
theorem sum_law (X T : Fin 1024 → Fin 1024 → EReal) (n : BitVec 32) (hlast : mk n 1023 = 0) :
    sumKf X T n = sumRf X T n := by
  unfold sumKf sumRf
  rw [Fin.sum_univ_castSucc]
  have hrow : (∑ j : Fin 1024, dev (X (nxt (Fin.last 1023)) (nxt j)) (T (Fin.last 1023) j) * mk n (Fin.last 1023).val * mk n j.val) = 0 := by
    apply Finset.sum_eq_zero
    intro j _
    rw [show (Fin.last 1023).val = 1023 from rfl, hlast, mul_zero, zero_mul]
  rw [hrow, add_zero, zero_add]
  apply Finset.sum_congr rfl
  intro i _
  rw [Fin.sum_univ_castSucc, show (Fin.last 1023).val = 1023 from rfl, hlast, mul_zero, add_zero]
  apply Finset.sum_congr rfl
  intro j _
  rw [nxt_castSucc, nxt_castSucc, mul_assoc, Fin.coe_castSucc, Fin.coe_castSucc]

end Cert.Hand

end
-- ==== Proof.Bridge.lean ====
/-
  The two programs compute one value. From memories that agree on the three arguments, under the precondition (the
  float inputs finite, every mask entry 0 or 1): both sample-length vectors are the row sums of the mask less two, the
  same term; each length is k - 2 for some k ≤ 1024, so the mask factor at position 1023 is zero and the kernel's
  per-sample sum over 1024 x 1024 positions is the reference's over 1023 x 1023 (the sum law); and for such lengths
  max(float(n) * float(n), 1.0) is float(max(n * n, 1)). The shared host tail then gives equal results.
-/
import proofs.«417268_j40742059770679_1_alg».proof.Defs
import proofs.«417268_j40742059770679_1_alg».proof.Proof.KVal.FinalArr
import proofs.«417268_j40742059770679_1_alg».proof.Proof.KVal.Tail
import proofs.«417268_j40742059770679_1_alg».proof.Proof.RefValue
import proofs.«417268_j40742059770679_1_alg».proof.Proof.PreDecode
import proofs.«417268_j40742059770679_1_alg».proof.Proof.LensFacts
import proofs.«417268_j40742059770679_1_alg».proof.Proof.SumLaw

set_option maxRecDepth 16384

noncomputable section

namespace Cert.Hand.Bridge

open Idealize.ShloMosaic Idealize.ShloMosaic.TcCoe Idealize.ShloMosaic.ValueIdx Idealize.SL.Sem
open Cert.Hand

/-- The per-sample sums agree when the sample length is k - 2 with k ≤ 1024. -/
theorem perSample_eq (X T : Fin 1024 → Fin 1024 → EReal) (n : BitVec 32)
    (hn : ∃ k : ℕ, k ≤ 1024 ∧ n = BitVec.ofInt 32 ((k : ℤ) - 2)) : Spec.sumKf X T n = Spec.sumRf X T n :=
  sum_law X T n (Lens.mk_last_of n hn)

section
open Cert.KernelIdeal Cert.KernelIdeal.Gen Cert.KernelIdeal.Hand

variable (m : (ℓ : Loc Cert.KernelIdeal.nD Cert.KernelIdeal.τ Cert.KernelIdeal.sig) → Buf (Elt Ideal) ℓ)

/-- The kernel program's result, from launch contents satisfying the precondition, is the reference's stage of the
    same three argument arrays. -/
theorem value_eq (c : Dev Cert.KernelIdeal.nD)
    (hpre : Cert.Pre_finite_inputs.fn (F := Ideal) (m (c, main_arg0)) (m (c, main_arg1)) (m (c, main_arg2)) = fun _ => 1#1) :
    Wfin m c (Proc.devRef .tc main_v15)
      = Cert.ReferenceIdeal.ReadP.val_main_v31 (F := Ideal) (m (c, main_arg0)) (m (c, main_arg1)) (m (c, main_arg2)) := by
  obtain ⟨-, -, h01⟩ := Pre.decode (m (c, main_arg0)) (m (c, main_arg2)) (m (c, main_arg1)) hpre
  have hlen : ∀ b, ∃ k : ℕ, k ≤ 1024 ∧ V m c main_v2 b = BitVec.ofInt 32 ((k : ℤ) - 2) := fun b => by
    rw [V_v2]
    exact Lens.lens_range Facts₀.reducesTo_S32x1024_S32_d1 Facts₀.h_S_ Facts₀.bcast_S_S32 (m (c, main_arg1)) h01 b
  rw [Wfin_v15, RefValue.ref_result]
  have hn : V m c main_v2 = RefValue.lens (m (c, main_arg1)) := V_v2 m c
  have hps : (fun b : S32.Idx => (dats m 0 c).arrAt 2 (cfgM m).N (ix2 (b 0) (0 : Fin 128)))
      = fun b => Spec.sumRf (fun a k => m (c, main_arg0) (ix3 (b 0) a k)) (fun a k => m (c, main_arg2) (ix3 (b 0) a k)) (RefValue.lens (m (c, main_arg1)) b) := by
    funext b
    have hb : V m c main_v2 b = V m c main_v2 (ix1 (b 0)) := congrArg (V m c main_v2) (eq_ix1 b)
    refine (final_out_apply m c (b 0) (0 : Fin 128)).trans ?_
    unfold sampleSum
    rw [V_arg0, V_arg2, ← hn, hb]
    exact perSample_eq _ _ _ (hlen (ix1 (b 0)))
  have hden : denK m c = RefValue.denR (m (c, main_arg1)) := by
    unfold denK RefValue.denR
    rw [← hn]
    exact Lens.den_eq Facts₀.bcast_S_S32 Facts₀.h_S_ (V m c main_v2) hlen
  rw [hps, hden, hn]
end

end Cert.Hand.Bridge

end
-- ==== Proof.lean ====
/-
  The certificate of the masked pairwise loss kernel against its jnp reference.

  Per sample b with length n_b = (row sum of the mask) - 2, the kernel adds |t[i,j] - x[i+1,j+1]^2| [i < n_b][j < n_b] over
  all 1024 x 1024 positions of the sample's block (the input rotated one row and one column, cyclically), one sample per
  grid point, eight samples to an output block; the reference adds it over the 1023 x 1023 positions where the successor
  does not wrap. Under the precondition — the float inputs finite and every mask entry 0 or 1 — n_b ≤ 1022, so the
  wrapped row and column carry a zero mask factor and the two sums are one; the denominators max(float(n)^2, 1) and
  float(max(n * n, 1)) are one as well, and both programs end with the same host tail.

  The three frames: the kernel program's run is proved once for any float values (its body obligation at every grid point,
  the launch as host stretch / region / host stretches, the table of lengths held whole through the region and handed
  back to the later host lines that read it) and cited at both instances; the reference's frame is its run.
-/
import proofs.«417268_j40742059770679_1_alg».proof.Defs
import proofs.«417268_j40742059770679_1_alg».proof.Proof.Gen.Kernel
import proofs.«417268_j40742059770679_1_alg».proof.Proof.Gen.KernelIdeal
import proofs.«417268_j40742059770679_1_alg».proof.Proof.Gen.ReferenceIdeal
import proofs.«417268_j40742059770679_1_alg».proof.Proof.Gen.Pre_finite_inputs
import proofs.«417268_j40742059770679_1_alg».proof.Proof.K.Run
import proofs.«417268_j40742059770679_1_alg».proof.Proof.K.Args
import proofs.«417268_j40742059770679_1_alg».proof.Proof.KI.Run
import proofs.«417268_j40742059770679_1_alg».proof.Proof.KI.Args
import proofs.«417268_j40742059770679_1_alg».proof.Proof.RefRunP
import proofs.«417268_j40742059770679_1_alg».proof.Proof.Bridge
import Idealize.ShloMosaic.Adequacy
import Idealize.ShloMosaic.Init

noncomputable section

namespace Cert.Proof

open Idealize.ShloMosaic Idealize.ShloMosaic.TcCoe Idealize.SL.Sem

/-- The argument arrays and the result are unscoped buffers of the TensorCore: the buffers the run's post speaks of. -/
theorem memK0 : (Proc.devRef .tc Cert.Kernel.main_arg0 : DevRef Cert.Kernel.τ Cert.Kernel.sig) ∈ Pipeline.ucRefs Cert.Kernel.τ Cert.Kernel.sig := by decide
theorem memK1 : (Proc.devRef .tc Cert.Kernel.main_arg1 : DevRef Cert.Kernel.τ Cert.Kernel.sig) ∈ Pipeline.ucRefs Cert.Kernel.τ Cert.Kernel.sig := by decide
theorem memK2 : (Proc.devRef .tc Cert.Kernel.main_arg2 : DevRef Cert.Kernel.τ Cert.Kernel.sig) ∈ Pipeline.ucRefs Cert.Kernel.τ Cert.Kernel.sig := by decide
theorem memI0 : (Proc.devRef .tc Cert.KernelIdeal.main_arg0 : DevRef Cert.KernelIdeal.τ Cert.KernelIdeal.sig) ∈ Pipeline.ucRefs Cert.KernelIdeal.τ Cert.KernelIdeal.sig := by decide
theorem memI1 : (Proc.devRef .tc Cert.KernelIdeal.main_arg1 : DevRef Cert.KernelIdeal.τ Cert.KernelIdeal.sig) ∈ Pipeline.ucRefs Cert.KernelIdeal.τ Cert.KernelIdeal.sig := by decide
theorem memI2 : (Proc.devRef .tc Cert.KernelIdeal.main_arg2 : DevRef Cert.KernelIdeal.τ Cert.KernelIdeal.sig) ∈ Pipeline.ucRefs Cert.KernelIdeal.τ Cert.KernelIdeal.sig := by decide
theorem memI15 : (Proc.devRef .tc Cert.KernelIdeal.main_v15 : DevRef Cert.KernelIdeal.τ Cert.KernelIdeal.sig) ∈ Pipeline.ucRefs Cert.KernelIdeal.τ Cert.KernelIdeal.sig := by decide

/-- The word-level kernel program runs to the end, and its three arguments end as launched. -/
theorem frame_k : Cert.frame_Kernel := fun m ρ _ =>
  (θ_run Cert.Kernel.defs _ _).mono (fun _ h c =>
    ⟨(h c Cert.Kernel.main_arg0 memK0).trans (Cert.Kernel.Hand.Wfin_arg0 m c),
     (h c Cert.Kernel.main_arg1 memK1).trans (Cert.Kernel.Hand.Wfin_arg1 m c),
     (h c Cert.Kernel.main_arg2 memK2).trans (Cert.Kernel.Hand.Wfin_arg2 m c)⟩)
    (Cert.Kernel.Hand.run_main (F := Bits) m ρ)

/-- The idealized kernel program likewise. -/
theorem frame_ki : Cert.frame_KernelIdeal := fun m ρ _ =>
  (θ_run Cert.KernelIdeal.defs _ _).mono (fun _ h c =>
    ⟨(h c Cert.KernelIdeal.main_arg0 memI0).trans (Cert.KernelIdeal.Hand.Wfin_arg0 m c),
     (h c Cert.KernelIdeal.main_arg1 memI1).trans (Cert.KernelIdeal.Hand.Wfin_arg1 m c),
     (h c Cert.KernelIdeal.main_arg2 memI2).trans (Cert.KernelIdeal.Hand.Wfin_arg2 m c)⟩)
    (Cert.KernelIdeal.Hand.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the same result: the kernel program's final result
    buffer, which the reference's run reaches too (the bridge). -/
theorem algebraic : Cert.algebraic_KernelIdeal_ReferenceIdeal := by
  intro m ρ m' ρ' hpre hagree
  refine ⟨fun c => Cert.KernelIdeal.Hand.Wfin m c (Proc.devRef .tc Cert.KernelIdeal.main_v15), ?_, ?_⟩
  · exact (θ_run Cert.KernelIdeal.defs _ _).mono (fun _ h c =>
      ⟨h c Cert.KernelIdeal.main_v15 memI15,
       (h c Cert.KernelIdeal.main_arg0 memI0).trans (Cert.KernelIdeal.Hand.Wfin_arg0 m c),
       (h c Cert.KernelIdeal.main_arg1 memI1).trans (Cert.KernelIdeal.Hand.Wfin_arg1 m c),
       (h c Cert.KernelIdeal.main_arg2 memI2).trans (Cert.KernelIdeal.Hand.Wfin_arg2 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2]
    exact (Cert.Hand.Bridge.value_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
